-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S200000 : Shape := ⟨1, ![200000]⟩
abbrev S256x256 : Shape := ⟨2, ![256, 256]⟩
abbrev S256 : Shape := ⟨1, ![256]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg12 : FVec F S256x256 .f32) (main_arg13 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg12
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg8 : FVec F S256x256 .f32) (main_arg9 : FVec F S256 .f32) (main_arg10 : FVec F S256x256 .f32) (main_arg11 : FVec F S256 .f32) (main_arg12 : FVec F S256x256 .f32) (main_arg13 : FVec F S256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_v48 main_v49 main_v50

def fn_part1 {F : FTy → Type} [FloatOps F] (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S200000x256 .f32) (main_arg1 : IVec S200000 32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_arg12 main_arg13 main_v13 main_v16
-- ==== Kernel.lean ====
abbrev S200000x256 : Shape := ⟨2, ![200000, 256]⟩
abbrev S200000 : Shape := ⟨1, ![200000]⟩
abbrev S256x256 : Shape := ⟨2, ![256, 256]⟩
abbrev S256 : Shape := ⟨1, ![256]⟩
abbrev S200000x1 : Shape := ⟨2, ![200000, 1]⟩
abbrev S2x1024x256 : Shape := ⟨3, ![2, 1024, 256]⟩
abbrev S2000x256 : Shape := ⟨2, ![2000, 256]⟩
abbrev S2000x1 : Shape := ⟨2, ![2000, 1]⟩
abbrev S1x1024x256 : Shape := ⟨3, ![1, 1024, 256]⟩
abbrev S1024x256 : Shape := ⟨2, ![1024, 256]⟩
abbrev S1x256 : Shape := ⟨2, ![1, 256]⟩
abbrev S2000x1024 : Shape := ⟨2, ![2000, 1024]⟩

abbrev nBuf : Space → Nat
  | .hbm => 17
  | .vmem => 19
  | .smem => 0
  | _ => 0

abbrev bufTy : (tb : Table) → Fin (tcTables nBuf tb) → BufTy
  | .hbm, ⟨0, _⟩ => ⟨S200000x256, .f32⟩
  | .hbm, ⟨1, _⟩ => ⟨S200000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S200000x1, .i32⟩
  | .hbm, ⟨15, _⟩ => ⟨S2x1024x256, .f32⟩
  | .hbm, ⟨16, _⟩ => ⟨S1024x256, .f32⟩
  | .local _ .vmem, ⟨0, _⟩ => ⟨S2000x256, .f32⟩
  | .local _ .vmem, ⟨1, _⟩ => ⟨S2000x256, .f32⟩
  | .local _ .vmem, ⟨2, _⟩ => ⟨S2000x1, .i32⟩
  | .local _ .vmem, ⟨3, _⟩ => ⟨S2000x1, .i32⟩
  | .local _ .vmem, ⟨4, _⟩ => ⟨S256x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S256x256, .f32⟩
  | .local _ .vmem, ⟨11, _⟩ => ⟨S256, .f32⟩
  | .local _ .vmem, ⟨12, _⟩ => ⟨S1x1024x256, .f32⟩
  | .local _ .vmem, ⟨13, _⟩ => ⟨S2x1024x256, .f32⟩
  | .local _ .vmem, ⟨14, _⟩ => ⟨S256x256, .f32⟩
  | .local _ .vmem, ⟨15, _⟩ => ⟨S256, .f32⟩
  | .local _ .vmem, ⟨16, _⟩ => ⟨S256x256, .f32⟩
  | .local _ .vmem, ⟨17, _⟩ => ⟨S256, .f32⟩
  | .local _ .vmem, ⟨18, _⟩ => ⟨S1024x256, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc1_sem0_0 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18

abbrev nD : Nat := 1
abbrev τ : Topo := Topo.v7x

variable {F : FTy → Type} [FloatOps F]

abbrev grid0 : Pipeline.Grid := ⟨2, ![2, 50], ![false, false]⟩

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2x1024x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  shapeCasts_S200000_S200000x1 : S200000.ShapeCasts S200000x1
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x1024_d1_w32 : S2000x1024.Iotas .tc 32 [1]
  broadcasts_S2000x1_S2000x1024 : S2000x1.Broadcasts S2000x1024
  natLt_1_32 : 1 < 32
  inb_S2x1024x256_S2x1024x256_0_0_0 : ∀ a, (![0, 0, 0] : Fin 3 → Nat) a + S2x1024x256.size a ≤ S2x1024x256.size a
  h_S2x1024x256 : 0 < S2x1024x256.numel
  shapeCasts_S2x1024x256_S2x1024x256 : S2x1024x256.ShapeCasts S2x1024x256
  slices_S2x1024x256_o0_0_0_S1x1024x256 : S2x1024x256.Slices ![0, 0, 0] S1x1024x256
  slices_S2x1024x256_o1_0_0_S1x1024x256 : S2x1024x256.Slices ![1, 0, 0] S1x1024x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  dot_S2000x256_S256x256_S2000x256_1_0_0_1_n_n_wf : DotDims.WF S2000x256 S256x256 S2000x256 [1] [0] [0] [1] [] []
  dot_S2000x1024_S2000x256_S1024x256_0_0_1_1_n_n_wf : DotDims.WF S2000x1024 S2000x256 S1024x256 [0] [0] [1] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S200000x256.size a
  hwx0_0 : ∀ i : grid0.Coords, EltTy.bits .f32 = 32 ∨ (Rect.block (s := S200000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S200000x1.size a
  hwx0_1 : ∀ i : grid0.Coords, EltTy.bits .i32 = 32 ∨ (Rect.block (s := S200000x1) S2000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024x256.size a ≤ S2x1024x256.size a
  hwx0_10 : ∀ i : grid0.Coords, EltTy.bits .f32 = 32 ∨ (Rect.block (s := S2x1024x256) S1x1024x256.size (cc0_transform_10 i) (hinb0_10 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2x1024x256.size a ≤ S2x1024x256.size a
  hwx1_0 : ∀ i : grid1.Coords, EltTy.bits .f32 = 32 ∨ (Rect.block (s := S2x1024x256) S2x1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x256.size a ≤ S1024x256.size a
  hwx1_5 : ∀ i : grid1.Coords, EltTy.bits .f32 = 32 ∨ (Rect.block (s := S1024x256) S1024x256.size (cc1_transform_5 i) (hinb1_5 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x1024_S2000x256_S1024x256_0_0_1_1_n_n : DotDims S2000x1024 S2000x256 S1024x256 where
  lhsContracting := [0]
  rhsContracting := [0]
  lhsNonContracting := [1]
  rhsNonContracting := [1]
  lhsBatch := []
  rhsBatch := []
  wf := dot_S2000x1024_S2000x256_S1024x256_0_0_1_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v1) S1x1024x256.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v1) S2x1024x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1024x256.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S200000x256 : Shape := ⟨2, ![200000, 256]⟩
abbrev S200000 : Shape := ⟨1, ![200000]⟩
abbrev S256x256 : Shape := ⟨2, ![256, 256]⟩
abbrev S256 : Shape := ⟨1, ![256]⟩
abbrev S1x256 : Shape := ⟨2, ![1, 256]⟩
abbrev S_ : Shape := ⟨0, ![]⟩
abbrev S1024x256 : Shape := ⟨2, ![1024, 256]⟩
abbrev S200000x1 : Shape := ⟨2, ![200000, 1]⟩

abbrev nBuf : Space → Nat
  | .hbm => 69
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S200000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S200000x256, .f32⟩
  | .hbm, ⟨15, _⟩ => ⟨S1x256, .f32⟩
  | .hbm, ⟨16, _⟩ => ⟨S200000x256, .f32⟩
  | .hbm, ⟨17, _⟩ => ⟨S200000x256, .f32⟩
  | .hbm, ⟨18, _⟩ => ⟨S_, .f32⟩
  | .hbm, ⟨19, _⟩ => ⟨S200000x256, .f32⟩
  | .hbm, ⟨20, _⟩ => ⟨S200000x256, .f32⟩
  | .hbm, ⟨21, _⟩ => ⟨S200000x256, .f32⟩
  | .hbm, ⟨22, _⟩ => ⟨S1x256, .f32⟩
  | .hbm, ⟨23, _⟩ => ⟨S200000x256, .f32⟩
  | .hbm, ⟨24, _⟩ => ⟨S200000x256, .f32⟩
  | .hbm, ⟨25, _⟩ => ⟨S_, .f32⟩
  | .hbm, ⟨26, _⟩ => ⟨S200000x256, .f32⟩
  | .hbm, ⟨27, _⟩ => ⟨S200000x256, .f32⟩
  | .hbm, ⟨28, _⟩ => ⟨S200000x256, .f32⟩
  | .hbm, ⟨29, _⟩ => ⟨S1x256, .f32⟩
  | .hbm, ⟨30, _⟩ => ⟨S200000x256, .f32⟩
  | .hbm, ⟨31, _⟩ => ⟨S200000x256, .f32⟩
  | .hbm, ⟨32, _⟩ => ⟨S_, .f32⟩
  | .hbm, ⟨33, _⟩ => ⟨S200000x256, .f32⟩
  | .hbm, ⟨34, _⟩ => ⟨S200000x256, .f32⟩
  | .hbm, ⟨35, _⟩ => ⟨S200000x256, .f32⟩
  | .hbm, ⟨36, _⟩ => ⟨S1x256, .f32⟩
  | .hbm, ⟨37, _⟩ => ⟨S200000x256, .f32⟩
  | .hbm, ⟨38, _⟩ => ⟨S200000x256, .f32⟩
  | .hbm, ⟨39, _⟩ => ⟨S_, .f32⟩
  | .hbm, ⟨40, _⟩ => ⟨S200000x256, .f32⟩
  | .hbm, ⟨41, _⟩ => ⟨S200000x256, .f32⟩
  | .hbm, ⟨42, _⟩ => ⟨S200000x256, .f32⟩
  | .hbm, ⟨43, _⟩ => ⟨S200000x256, .f32⟩
  | .hbm, ⟨44, _⟩ => ⟨S_, .f32⟩
  | .hbm, ⟨45, _⟩ => ⟨S200000x256, .f32⟩
  | .hbm, ⟨46, _⟩ => ⟨S200000x256, .f32⟩
  | .hbm, ⟨47, _⟩ => ⟨S_, .f32⟩
  | .hbm, ⟨48, _⟩ => ⟨S200000x256, .f32⟩
  | .hbm, ⟨49, _⟩ => ⟨S200000x256, .f32⟩
  | .hbm, ⟨50, _⟩ => ⟨S200000x256, .f32⟩
  | .hbm, ⟨51, _⟩ => ⟨S_, .f32⟩
  | .hbm, ⟨52, _⟩ => ⟨S1024x256, .f32⟩
  | .hbm, ⟨53, _⟩ => ⟨S200000x1, .i32⟩
  | .hbm, ⟨54, _⟩ => ⟨S1024x256, .f32⟩
  | .hbm, ⟨55, _⟩ => ⟨S1024x256, .f32⟩
  | .hbm, ⟨56, _⟩ => ⟨S1x256, .f32⟩
  | .hbm, ⟨57, _⟩ => ⟨S1024x256, .f32⟩
  | .hbm, ⟨58, _⟩ => ⟨S1024x256, .f32⟩
  | .hbm, ⟨59, _⟩ => ⟨S_, .f32⟩
  | .hbm, ⟨60, _⟩ => ⟨S1024x256, .f32⟩
  | .hbm, ⟨61, _⟩ => ⟨S1024x256, .f32⟩
  | .hbm, ⟨62, _⟩ => ⟨S1024x256, .f32⟩
  | .hbm, ⟨63, _⟩ => ⟨S1x256, .f32⟩
  | .hbm, ⟨64, _⟩ => ⟨S1024x256, .f32⟩
  | .hbm, ⟨65, _⟩ => ⟨S1024x256, .f32⟩
  | .hbm, ⟨66, _⟩ => ⟨S_, .f32⟩
  | .hbm, ⟨67, _⟩ => ⟨S1024x256, .f32⟩
  | .hbm, ⟨68, _⟩ => ⟨S1024x256, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_cst : Ref sig .tc := ⟨.hbm, 25, rfl⟩
abbrev main_call1_v0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call2_cst : Ref sig .tc := ⟨.hbm, 32, rfl⟩
abbrev main_call2_v0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call3_cst : Ref sig .tc := ⟨.hbm, 39, rfl⟩
abbrev main_call3_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst : Ref sig .tc := ⟨.hbm, 44, rfl⟩
abbrev main_v22 : Ref sig .tc := ⟨.hbm, 45, rfl⟩
abbrev main_v23 : Ref sig .tc := ⟨.hbm, 46, rfl⟩
abbrev main_cst_0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_1 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_call4_cst : Ref sig .tc := ⟨.hbm, 59, rfl⟩
abbrev main_call4_v0 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_call5_cst : Ref sig .tc := ⟨.hbm, 66, rfl⟩
abbrev main_call5_v0 : Ref sig .tc := ⟨.hbm, 67, rfl⟩
abbrev main_v39 : Ref sig .tc := ⟨.hbm, 68, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  bcast_S_S1024x256 : S_.BroadcastsInDim S1024x256 (![] : Fin 0 → Fin S1024x256.rank)
  bcast_S200000_S200000x1_0 : S200000.BroadcastsInDim S200000x1 (![0] : Fin 1 → Fin S200000x1.rank)
  bcast_S1x256_S1024x256_0_1 : S1x256.BroadcastsInDim S1024x256 (![0, 1] : Fin 2 → Fin S1024x256.rank)
  dot_S200000x256_S256x256_S200000x256_1_0_0_1_n_n_wf : DotDims.WF S200000x256 S256x256 S200000x256 [1] [0] [0] [1] [] []
  scatter_S1024x256_S200000x1_S200000x256_1_0_0_1_wf : ScatterDims.WF S1024x256 S200000x1 S200000x256 [1] [0] [0] 1
  dot_S1024x256_S256x256_S1024x256_1_0_0_1_n_n_wf : DotDims.WF S1024x256 S256x256 S1024x256 [1] [0] [0] [1] [] []

variable [Facts₀]

def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf
def scatter_S1024x256_S200000x1_S200000x256_1_0_0_1 : ScatterDims S1024x256 S200000x1 S200000x256 where
  updateWindowDims := [1]
  insertedWindowDims := [0]
  scatterDimsToOperandDims := [0]
  indexVectorDim := 1
  wf := scatter_S1024x256_S200000x1_S200000x256_1_0_0_1_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

class Facts : Prop extends Facts₀ where

variable [Facts]
-- ==== Proof.LibBlockSum.lean ====
/-
  Three general facts: a sum over B·R indices taken block by block, a 32-bit word read as a small natural number, and an
  indicator times an extended real.
-/
import Mathlib.Logic.Equiv.Fin.Basic
import Mathlib.Data.Fintype.BigOperators
import Mathlib.Algebra.BigOperators.Group.Finset.Defs
import Mathlib.Data.EReal.Operations

noncomputable section

open scoped BigOperators

namespace Cert.LibBlockSum

/-! ## A sum over B·R indices, block by block -/

/-- Entry `r` of block `t`, among `N = B * R` indices cut into `B` consecutive blocks of `R`: the index `R * t + r`. -/
def blockIdx {B R N : Nat} (h : B * R = N) (t : Fin B) (r : Fin R) : Fin N :=
  ⟨R * t.val + r.val, by
    have ht := t.isLt
    have hr := r.isLt
    calc R * t.val + r.val < R * t.val + R := by omega
      _ = R * (t.val + 1) := by rw [Nat.mul_succ]
      _ ≤ R * B := Nat.mul_le_mul_left _ ht
      _ = N := by rw [Nat.mul_comm]; exact h⟩

/-- Its value is `R * t + r`. -/
theorem blockIdx_val {B R N : Nat} (h : B * R = N) (t : Fin B) (r : Fin R) :
    (blockIdx h t r).val = R * t.val + r.val := rfl

/-- A sum over `N = B * R` indices is the sum over the `B` blocks of the sum over each block's `R` entries. -/
theorem sum_blocks {M : Type*} [AddCommMonoid M] {B R N : Nat} (h : B * R = N) (f : Fin N → M) :
    ∑ n : Fin N, f n = ∑ t : Fin B, ∑ r : Fin R, f (blockIdx h t r) := by
  subst h
  rw [← Equiv.sum_comp (finProdFinEquiv (m := B) (n := R)) f, Fintype.sum_prod_type]
  refine Finset.sum_congr rfl fun t _ => Finset.sum_congr rfl fun r _ => congrArg f (Fin.ext ?_)
  show r.val + R * t.val = R * t.val + r.val
  exact Nat.add_comm _ _

/-! ## A 32-bit word that is a small natural number -/

/-- A 32-bit word is the word of a natural number `g` below `2 ^ 31` exactly when, read as a signed integer, it is `g`. -/
theorem eq_ofNat_iff_toInt_eq (b : BitVec 32) (g : Nat) (hg : g < 2 ^ 31) :
    b = BitVec.ofNat 32 g ↔ b.toInt = (g : Int) := by
  have e : (BitVec.ofNat 32 g).toInt = (g : Int) := by
    rw [BitVec.toInt_eq_toNat_of_lt (by rw [BitVec.toNat_ofNat]; omega), BitVec.toNat_ofNat]
    omega
  rw [← e]
  exact BitVec.toInt_inj.symm

/-! ## An indicator times an extended real -/

/-- One or zero, by a condition, times an extended real is the real or zero, by the condition. -/
theorem ite_one_zero_mul (p : Prop) [Decidable p] (x : EReal) :
    (if p then (1 : EReal) else 0) * x = if p then x else 0 := by
  split
  · exact one_mul x
  · exact zero_mul x

/-- The example: 100000 indices as 20 blocks of 5000 (name the two factors: the product alone does not determine them). -/
example {M : Type*} [AddCommMonoid M] (f : Fin 100000 → M) :
    ∑ n : Fin 100000, f n = ∑ t : Fin 20, ∑ r : Fin 5000, f (blockIdx (B := 20) (R := 5000) (N := 100000) (by norm_num) t r) :=
  sum_blocks (B := 20) (R := 5000) (by norm_num) f

end Cert.LibBlockSum

end
-- ==== Proof.Spec.lean ====
/-
  What both programs compute, as functions on the extended reals, and the one regrouping law between them.

  A layer is a row of a matrix product plus a bias, cut off below at zero; a network is two layers. Each of the
  200000 rows of `x` goes through two networks, the second followed by the logistic function, and the two results
  are multiplied entry by entry. Row `r` is then added into the segment whose number is the signed reading of
  `seg r`; a row whose number is not one of the 1024 segments is added nowhere. A third network is applied to the
  1024 segment sums.

  The kernel forms the segment sums tile by tile: the rows are cut into 100 consecutive tiles of 2000, the tiles into
  two halves of 50, each half summed separately and the two halves added. Addition of extended reals is commutative and
  associative, so the sum over all rows is the sum over the halves of the sums over their tiles of the sums over their
  rows; nothing is cancelled or distributed, and no finiteness is used.
-/
import Idealize.ShloMosaic.PureOps.Ideal
import Idealize.ShloMosaic.Lib.ValueIdx
import proofs.«425977_j5583457485045_2_alg».proof.Proof.LibBlockSum

noncomputable section

open scoped BigOperators

namespace Cert.Spec

open Idealize.ShloMosaic Idealize.ShloMosaic.ValueIdx Cert.LibBlockSum

/-- A matrix as a function of its two coordinates. -/
abbrev mat {a b : ℕ} {α : Type} (W : (⟨2, ![a, b]⟩ : Shape).Idx → α) : Fin a → Fin b → α := fun j k => W (ix2 j k)
/-- A vector as a function of its coordinate. -/
abbrev vec {a : ℕ} {α : Type} (v : (⟨1, ![a]⟩ : Shape).Idx → α) : Fin a → α := fun k => v (ix1 k)

/-- One layer on the rows of `x`: the row times the weight matrix, plus the bias, cut off below at zero. -/
def dense {R : Type} (x : R → Fin 256 → EReal) (W : Fin 256 → Fin 256 → EReal) (b : Fin 256 → EReal) :
    R → Fin 256 → EReal :=
  fun r d => max ((∑ k : Fin 256, x r k * W k d) + b d) 0

/-- Two layers. -/
def mlp {R : Type} (x : R → Fin 256 → EReal) (W1 : Fin 256 → Fin 256 → EReal) (b1 : Fin 256 → EReal)
    (W2 : Fin 256 → Fin 256 → EReal) (b2 : Fin 256 → EReal) : R → Fin 256 → EReal :=
  dense (dense x W1 b1) W2 b2

/-- The gated row: the logistic function of the gate network times the weight network, entry by entry. -/
def gatedRow {R : Type} (x : R → Fin 256 → EReal)
    (Ww1 : Fin 256 → Fin 256 → EReal) (bw1 : Fin 256 → EReal) (Ww2 : Fin 256 → Fin 256 → EReal) (bw2 : Fin 256 → EReal)
    (Wg1 : Fin 256 → Fin 256 → EReal) (bg1 : Fin 256 → EReal) (Wg2 : Fin 256 → Fin 256 → EReal) (bg2 : Fin 256 → EReal) :
    R → Fin 256 → EReal :=
  fun r d => Ideal.logistic (mlp x Wg1 bg1 Wg2 bg2 r d) * mlp x Ww1 bw1 Ww2 bw2 r d

/-- A layer only looks at its own row: on a selection of rows it is the layer on all rows, at the selected row. -/
theorem dense_comp {R R' : Type} (f : R' → R) (x : R → Fin 256 → EReal) (W : Fin 256 → Fin 256 → EReal)
    (b : Fin 256 → EReal) : dense (fun r' => x (f r')) W b = fun r' => dense x W b (f r') := rfl

theorem mlp_comp {R R' : Type} (f : R' → R) (x : R → Fin 256 → EReal) (W1 : Fin 256 → Fin 256 → EReal)
    (b1 : Fin 256 → EReal) (W2 : Fin 256 → Fin 256 → EReal) (b2 : Fin 256 → EReal) :
    mlp (fun r' => x (f r')) W1 b1 W2 b2 = fun r' => mlp x W1 b1 W2 b2 (f r') := rfl

theorem gatedRow_comp {R R' : Type} (f : R' → R) (x : R → Fin 256 → EReal)
    (Ww1 : Fin 256 → Fin 256 → EReal) (bw1 : Fin 256 → EReal) (Ww2 : Fin 256 → Fin 256 → EReal) (bw2 : Fin 256 → EReal)
    (Wg1 : Fin 256 → Fin 256 → EReal) (bg1 : Fin 256 → EReal) (Wg2 : Fin 256 → Fin 256 → EReal) (bg2 : Fin 256 → EReal) :
    gatedRow (fun r' => x (f r')) Ww1 bw1 Ww2 bw2 Wg1 bg1 Wg2 bg2
      = fun r' => gatedRow x Ww1 bw1 Ww2 bw2 Wg1 bg1 Wg2 bg2 (f r') := rfl

/-- The segment sums: segment `g` collects the rows whose segment number, read signed, is `g`. -/
def segSum {N : ℕ} (seg : Fin N → BitVec 32) (h : Fin N → Fin 256 → EReal) : Fin 1024 → Fin 256 → EReal :=
  fun g d => ∑ r : Fin N, if (seg r).toInt = (g.val : Int) then h r d else 0

/-- Row `t` of tile `s`, among 200000 rows in 100 tiles of 2000. -/
abbrev rowOf (s : Fin 100) (t : Fin 2000) : Fin 200000 := blockIdx (B := 100) (R := 2000) (N := 200000) (by norm_num) s t
/-- Tile `i` of half `c`, among 100 tiles in two halves of 50. -/
abbrev tileOf (c : Fin 2) (i : Fin 50) : Fin 100 := blockIdx (B := 2) (R := 50) (N := 100) (by norm_num) c i

/-- What tile `s` adds to the segment sums. -/
def tileSum (seg : Fin 200000 → BitVec 32) (h : Fin 200000 → Fin 256 → EReal) (s : Fin 100) : Fin 1024 → Fin 256 → EReal :=
  fun g d => ∑ t : Fin 2000, if (seg (rowOf s t)).toInt = (g.val : Int) then h (rowOf s t) d else 0

/-- The segment sums are the two halves' sums of their tiles' contributions, added. -/
theorem segSum_eq_halves (seg : Fin 200000 → BitVec 32) (h : Fin 200000 → Fin 256 → EReal) (g : Fin 1024) (d : Fin 256) :
    segSum seg h g d
      = (∑ i : Fin 50, tileSum seg h (tileOf 0 i) g d) + (∑ i : Fin 50, tileSum seg h (tileOf 1 i) g d) := by
  unfold segSum
  rw [sum_blocks (B := 100) (R := 2000) (N := 200000) (by norm_num)
      (fun r => if (seg r).toInt = (g.val : Int) then h r d else 0),
    sum_blocks (B := 2) (R := 50) (N := 100) (by norm_num)
      (fun s => ∑ t : Fin 2000, if (seg (rowOf s t)).toInt = (g.val : Int) then h (rowOf s t) d else 0),
    Fin.sum_univ_two]
  rfl

/-- THE RESULT, as a function of the fourteen argument arrays. -/
def out (x : (⟨2, ![200000, 256]⟩ : Shape).Idx → EReal) (seg : (⟨1, ![200000]⟩ : Shape).Idx → BitVec 32)
    (Ww1 : (⟨2, ![256, 256]⟩ : Shape).Idx → EReal) (bw1 : (⟨1, ![256]⟩ : Shape).Idx → EReal)
    (Ww2 : (⟨2, ![256, 256]⟩ : Shape).Idx → EReal) (bw2 : (⟨1, ![256]⟩ : Shape).Idx → EReal)
    (Wg1 : (⟨2, ![256, 256]⟩ : Shape).Idx → EReal) (bg1 : (⟨1, ![256]⟩ : Shape).Idx → EReal)
    (Wg2 : (⟨2, ![256, 256]⟩ : Shape).Idx → EReal) (bg2 : (⟨1, ![256]⟩ : Shape).Idx → EReal)
    (Wm1 : (⟨2, ![256, 256]⟩ : Shape).Idx → EReal) (bm1 : (⟨1, ![256]⟩ : Shape).Idx → EReal)
    (Wm2 : (⟨2, ![256, 256]⟩ : Shape).Idx → EReal) (bm2 : (⟨1, ![256]⟩ : Shape).Idx → EReal) :
    (⟨2, ![1024, 256]⟩ : Shape).Idx → EReal :=
  fun j => mlp (segSum (vec seg) (gatedRow (mat x) (mat Ww1) (vec bw1) (mat Ww2) (vec bw2) (mat Wg1) (vec bg1) (mat Wg2) (vec bg2)))
    (mat Wm1) (vec bm1) (mat Wm2) (vec bm2) (j 0) (j 1)

end Cert.Spec

end
-- ==== Proof.KArrays.lean ====
/-
  The two arrays the kernel program's regions produce, named at their literal types: what the pooling region leaves in
  its result array [2, 1024, 256], and what the second region leaves in the program's result array [1024, 256].
-/
import proofs.«425977_j5583457485045_2_alg».proof.Proof.Gen.KernelIdeal.Frame
import Idealize.ShloMosaic.PureOps.Ideal

noncomputable section

namespace Cert.KernelIdeal.Arr

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The pooling region's result array, as the second region finds it. -/
abbrev pooled (c : Dev nD) : S2x1024x256.Idx → EReal := W2 m ρ c (Proc.devRef .tc main_v1)

/-- The program's result array after the second region. -/
abbrev result (c : Dev nD) : S1024x256.Idx → EReal := W3 m ρ c (Proc.devRef .tc main_v2)

end Cert.KernelIdeal.Arr

end
-- ==== Proof.KPieces.lean ====
/-
  What one grid point of the pooling kernel leaves in the accumulator block, as ONE pure term of the point's ten input
  blocks and of what the block held before: `step`. At the first point of a half the block is first set to zero and
  read back, so the term is applied to the zero block; at every other point it is applied to what the point before
  left.
-/
import proofs.«425977_j5583457485045_2_alg».proof.Proof.Gen.KernelIdeal.Frame
import Idealize.ShloMosaic.Lib.ValueIdx
import Idealize.ShloMosaic.Lib.Pipeline.Value
import Idealize.ShloMosaic.Lib.Tactic
import Mathlib.Tactic.FinCases

noncomputable section

namespace Cert.KernelIdeal.Pool

open Cert.KernelIdeal Cert.KernelIdeal.Gen
open Idealize.ShloMosaic Idealize.ShloMosaic.TcCoe Idealize.ShloMosaic.ValueIdx Idealize.SL.Sem
open Idealize.ShloMosaic.Pipeline (Dat)
open Idealize.ShloMosaic.Tactic

variable {F : FTy → Type} [FloatOps F]

/-- The accumulator block after one grid point: the block before, plus the point's 2000 gated rows contracted against
    the one-hot matrix of their segment numbers (the body's arithmetic, as the printed payloads state it). -/
abbrev step (x0 : Vec F S2000x256 .f32) (x1 : Vec F S2000x1 .i32) (x2 : Vec F S256x256 .f32) (x3 : Vec F S256 .f32) (x4 : Vec F S256x256 .f32) (x5 : Vec F S256 .f32) (x6 : Vec F S256x256 .f32) (x7 : Vec F S256 .f32) (x8 : Vec F S256x256 .f32) (x9 : Vec F S256 .f32) (acc : Vec F S1x1024x256 .f32) : Vec F S1x1024x256 .f32 :=
  k0_pay1 (k0_pay4 x0 x2 x3 x4 x5) (k0_pay5 x0 x6 x7) (k0_pay6 x8) x9 x1 acc

/-- The offsets of a whole block, in each rank met here. -/
theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A point that is not the first of its half: `step` of what the block held. -/
theorem out_B (c : Dev nD) (i : grid0.Coords) (arg2 : Memref sig .tc .vmem S2000x256 .f32) (harg2 : arg2.IsWhole) (arg3 : Memref sig .tc .vmem S2000x1 .i32) (harg3 : arg3.IsWhole) (arg4 : Memref sig .tc .vmem S256x256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S256x256 .f32) (harg8 : arg8.IsWhole) (arg9 : Memref sig .tc .vmem S256 .f32) (harg9 : arg9.IsWhole) (arg10 : Memref sig .tc .vmem S256x256 .f32) (harg10 : arg10.IsWhole) (arg11 : Memref sig .tc .vmem S256 .f32) (harg11 : arg11.IsWhole) (arg12 : Memref sig .tc .vmem S1x1024x256 .f32) (harg12 : arg12.IsWhole) (hc0 : ¬cond0_0 i)
    (x0 : Vec F S2000x256 .f32) (x1 : Vec F S2000x1 .i32) (x2 : Vec F S256x256 .f32) (x3 : Vec F S256 .f32) (x4 : Vec F S256x256 .f32) (x5 : Vec F S256 .f32) (x6 : Vec F S256x256 .f32) (x7 : Vec F S256 .f32) (x8 : Vec F S256x256 .f32) (x9 : Vec F S256 .f32) (xo10 : Vec F S1x1024x256 .f32) :
    out0_B_10 c i arg2 harg2 arg3 harg3 arg4 harg4 arg5 harg5 arg6 harg6 arg7 harg7 arg8 harg8 arg9 harg9 arg10 harg10 arg11 harg11 arg12 harg12 hc0 x0 x1 x2 x3 x4 x5 x6 x7 x8 x9 xo10 = step x0 x1 x2 x3 x4 x5 x6 x7 x8 x9 xo10 := by
  -- the body's one store covers the block; its payload's loads read the whole input buffers and the block itself
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 hc0 x0 x1 x2 x3 x4 x5 x6 x7 x8 x9 xo10)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S2000x256) hz2, View.ld_unit_zero (S := S256x256) hz2, View.ld_unit_zero (S := S2000x1) hz2, View.ld_unit_zero (S := S256) hz1, View.ld_unit_zero (S := S1x1024x256) hz3]

/-- The first point of a half: `step` of the zero block. -/
theorem out_A (c : Dev nD) (i : grid0.Coords) (arg2 : Memref sig .tc .vmem S2000x256 .f32) (harg2 : arg2.IsWhole) (arg3 : Memref sig .tc .vmem S2000x1 .i32) (harg3 : arg3.IsWhole) (arg4 : Memref sig .tc .vmem S256x256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S256x256 .f32) (harg8 : arg8.IsWhole) (arg9 : Memref sig .tc .vmem S256 .f32) (harg9 : arg9.IsWhole) (arg10 : Memref sig .tc .vmem S256x256 .f32) (harg10 : arg10.IsWhole) (arg11 : Memref sig .tc .vmem S256 .f32) (harg11 : arg11.IsWhole) (arg12 : Memref sig .tc .vmem S1x1024x256 .f32) (harg12 : arg12.IsWhole) (hc0 : cond0_0 i)
    (x0 : Vec F S2000x256 .f32) (x1 : Vec F S2000x1 .i32) (x2 : Vec F S256x256 .f32) (x3 : Vec F S256 .f32) (x4 : Vec F S256x256 .f32) (x5 : Vec F S256 .f32) (x6 : Vec F S256x256 .f32) (x7 : Vec F S256 .f32) (x8 : Vec F S256x256 .f32) (x9 : Vec F S256 .f32) :
    out0_A_10 c i arg2 harg2 arg3 harg3 arg4 harg4 arg5 harg5 arg6 harg6 arg7 harg7 arg8 harg8 arg9 harg9 arg10 harg10 arg11 harg11 arg12 harg12 hc0 x0 x1 x2 x3 x4 x5 x6 x7 x8 x9 = step x0 x1 x2 x3 x4 x5 x6 x7 x8 x9 k0_pay2 := by
  -- two stores: the zero block, then the update, whose load of the block reads the zero block back
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 hc0 x0 x1 x2 x3 x4 x5 x6 x7 x8 x9)]
  unfold kernelRun0_A
  dsimp only
  sl_unfold_words
  rw [View.canon_cons_unit_zero (S := S1x1024x256) hz3, View.readCov_unit_zero (S := S1x1024x256) _ hz3]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S2000x256) hz2, View.ld_unit_zero (S := S256x256) hz2, View.ld_unit_zero (S := S2000x1) hz2, View.ld_unit_zero (S := S256) hz1, View.ld_unit_zero (S := S1x1024x256) hz3]

end Cert.KernelIdeal.Pool

end
-- ==== Proof.LibDot.lean ====
/-
  A plain matrix product read at an entry.

  For dimension numbers that contract axis 1 of an `M × K` left operand with axis 0 of a `K × N` right operand and
  have no batch axes, the contraction index is one coordinate `k : Fin K`, the left operand is read at `(a, k)` and the
  right operand at `(k, b)`: the sum over the contraction index is `∑ k : Fin K`. At the ideal instance this reads a
  kernel's matrix product into a zero accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index of a plain `M × K` by `K × N` product, as a sum over `Fin K`. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {α : Type} [AddCommMonoid α] (f : (⟨2, ![M, K]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 a k) (ix2 k b) := by
  obtain ⟨lc, rc, ln, rn, lb, rb, wf⟩ := d
  dsimp only at h1 h2 h3 h4 h5 h6
  subst h1 h2 h3 h4 h5 h6
  have hr : (DotDims.mk [1] [0] [0] [1] [] [] wf : DotDims ⟨2, ![M, K]⟩ ⟨2, ![K, N]⟩ ⟨2, ![M, N]⟩).contr.rank = 1 := rfl
  have hs : (DotDims.mk [1] [0] [0] [1] [] [] wf : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product into the zero accumulator, at the ideal instance, at entry `(a, b)`. -/
theorem matmul_zero_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  show FloatOps.matmul d prec l r (constant ⟨2, ![M, N]⟩ .f32 0x00000000#32) (ix2 a b) = _
  rw [Ideal.matmul_constant_zero_apply]
  exact plain_sum d h1 h2 h3 h4 h5 h6 (fun i j => l i * r j) a b

/-- A host program's `dot_general`, at the ideal instance, at entry `(a, b)`. -/
theorem dotGeneral_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  show FloatOps.dotGeneral d prec .single l r (ix2 a b) = _
  rw [Ideal.dotGeneral_apply]
  exact plain_sum d h1 h2 h3 h4 h5 h6 (fun i j => l i * r j) a b

end Cert.LibDot

end
-- ==== Proof.LibKeepdims.lean ====
/-
  Reductions that keep their axis, read at an index given by coordinates.

  A sum over one axis of a matrix that keeps the axis (`jnp.sum(…, keepdims=True)`) is a lane sum to a vector, a shape
  cast of the vector to a column `[a] → [a, 1]` or to a row `[a] → [1, a]`, and a broadcast of the column
  `[a, 1] → [a, b]` or of the row back over the matrix. Here: the column cast and the column broadcast at `(i, j)`, and
  an f32 lane sum over the columns (axis 1) or over the rows (axis 0) of a matrix at the extended reals as a
  `Fin`-indexed sum of the matrix entries.
-/
import Idealize.ShloMosaic.Lib.ValueLayout
import Idealize.ShloMosaic.PureOps.Ideal.Laws

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An f32 lane sum over the COLUMNS of an `[a, b]` matrix of extended reals is, in row `r`, the sum of that row. -/
theorem multiReduction_add_cols_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ c : Fin b, src (ix2 r c) :=
  (Ideal.multiReduction_add_single src 0x00000000#32 h hφ hacc (ix1 r)).trans
    (Finset.sum_congr rfl fun c _ => congrArg src (funext fun ax => Fin.ext (by
      match ax with
      | ⟨0, _⟩ => rfl
      | ⟨1, _⟩ => rfl)))

/-- An f32 lane sum over the ROWS of an `[a, b]` matrix of extended reals is, in column `j`, the sum of that column. -/
theorem multiReduction_add_rows_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ c : Fin a, src (ix2 c j) :=
  (Ideal.multiReduction_add_single src 0x00000000#32 h hφ hacc (ix1 j)).trans
    (Finset.sum_congr rfl fun c _ => congrArg src (funext fun ax => Fin.ext (by
      match ax with
      | ⟨0, _⟩ => rfl
      | ⟨1, _⟩ => rfl)))

end Idealize.ShloMosaic.ValueIdx
-- ==== Proof.KPayload.lean ====
/-
  One grid point's `step` read at an entry, on the extended reals: entry (g, d) of the accumulator block gains the sum,
  over the point's 2000 rows whose segment number read signed is g, of entry d of the gated row.
-/
import proofs.«425977_j5583457485045_2_alg».proof.Proof.KPieces
import proofs.«425977_j5583457485045_2_alg».proof.Proof.Spec
import proofs.«425977_j5583457485045_2_alg».proof.Proof.LibDot
import proofs.«425977_j5583457485045_2_alg».proof.Proof.LibBlockSum
import proofs.«425977_j5583457485045_2_alg».proof.Proof.LibKeepdims
import Idealize.ShloMosaic.Lib.ValueLayout
import Idealize.ShloMosaic.PureOps.Ideal.Laws

noncomputable section

open scoped BigOperators

namespace Cert.KernelIdeal.Pool

open Cert.KernelIdeal Cert.KernelIdeal.Gen
open Idealize.ShloMosaic Idealize.ShloMosaic.TcCoe Idealize.ShloMosaic.ValueIdx Idealize.SL.Sem
open Idealize.ShloMosaic.Pipeline (Dat)

/-- The sum over the contraction index of a product that contracts axis 0 of a `K × M` left operand with axis 0 of a
    `K × N` right operand, as a sum over `Fin K`: the left operand is read at `(k, a)`, the right one at `(k, b)`. -/
theorem colcol_sum {K M N : Nat} (d : DotDims ⟨2, ![K, M]⟩ ⟨2, ![K, N]⟩ ⟨2, ![M, N]⟩)
    (h1 : d.lhsContracting = [0]) (h2 : d.rhsContracting = [0]) (h3 : d.lhsNonContracting = [1])
    (h4 : d.rhsNonContracting = [1]) (h5 : d.lhsBatch = []) (h6 : d.rhsBatch = [])
    {α : Type} [AddCommMonoid α] (f : (⟨2, ![K, M]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 k a) (ix2 k b) := by
  obtain ⟨lc, rc, ln, rn, lb, rb, wf⟩ := d
  dsimp only at h1 h2 h3 h4 h5 h6
  subst h1 h2 h3 h4 h5 h6
  have hr : (DotDims.mk [0] [0] [1] [1] [] [] wf : DotDims ⟨2, ![K, M]⟩ ⟨2, ![K, N]⟩ ⟨2, ![M, N]⟩).contr.rank = 1 := rfl
  have hs : (DotDims.mk [0] [0] [1] [1] [] [] wf : DotDims ⟨2, ![K, M]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A matrix product that contracts axis 0 of both operands, into the zero accumulator, at entry `(a, b)`. -/
theorem matmul_colcol_zero_apply {K M N : Nat} (d : DotDims ⟨2, ![K, M]⟩ ⟨2, ![K, N]⟩ ⟨2, ![M, N]⟩)
    (h1 : d.lhsContracting = [0]) (h2 : d.rhsContracting = [0]) (h3 : d.lhsNonContracting = [1])
    (h4 : d.rhsNonContracting = [1]) (h5 : d.lhsBatch = []) (h6 : d.rhsBatch = []) {φ₁ φ₂ : FTy}
    (prec : Option ContractPrecision) (l : FVec Ideal ⟨2, ![K, M]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 k a) * r (ix2 k b) := by
  show FloatOps.matmul d prec l r (constant ⟨2, ![M, N]⟩ .f32 0x00000000#32) (ix2 a b) = _
  rw [Ideal.matmul_constant_zero_apply]
  exact colcol_sum d h1 h2 h3 h4 h5 h6 (fun i j => l i * r j) a b

/-- One layer of the kernel read at an entry: the row of the left operand times the column of the weight matrix, plus
    the bias entry, cut off below at zero (a change of format is the identity on the extended reals). -/
theorem point_dense_apply {φ ψ : FTy} (x : FVec Ideal S2000x256 φ) (W : FVec Ideal S256x256 ψ) (b : Vec Ideal S256 .f32)
    (t : Fin 2000) (d : Fin 256) :
    maximumf (addf (matmul dot_S2000x256_S256x256_S2000x256_1_0_0_1_n_n none x W (constant (F := Ideal) S2000x256 .f32 0x00000000#32))
        (broadcastTo S2000x256 (shapeCast S1x256 b shapeCasts_S256_S1x256) broadcasts_S1x256_S2000x256))
      (broadcast S2000x256 (Scalar.ofBits (F := Ideal) .f32 0x00000000#32)) (ix2 t d)
      = Spec.dense (Spec.mat x) (Spec.mat W) (Spec.vec b) t d := by
  rw [maximumf_apply, addf_apply, broadcast_apply,
    LibDot.matmul_zero_apply dot_S2000x256_S256x256_S2000x256_1_0_0_1_n_n rfl rfl rfl rfl rfl rfl,
    broadcastTo_1b_ab_apply, shapeCast_a_1a_apply]
  show max _ (Ideal.ofBits .f32 0x00000000#32) = _
  rw [Ideal.ofBits_zero_f32]
  rfl

/-- The one-bit word of an equality test, widened to 32 bits and read as a signed number on the extended reals: one
    when the two words are equal, zero otherwise. -/
theorem eqWord_apply (a b : BitVec 32) :
    (FloatOps.sitofp (F := Ideal) .f32 ((IntOp.cmpi .eq a b).setWidth 32) : EReal) = if a = b then (1 : EReal) else 0 := by
  show ((((IntOp.cmpi .eq a b).setWidth 32).toInt : ℝ) : EReal) = _
  by_cases h : a = b
  · rw [if_pos h]
    have e : IntOp.cmpi .eq a b = 1#1 := by
      show BitVec.ofBool (a == b) = 1#1
      rw [beq_iff_eq.mpr h]
      rfl
    rw [e]
    have e1 : ((1#1 : BitVec 1).setWidth 32).toInt = 1 := by decide
    rw [e1]
    norm_num
  · rw [if_neg h]
    have e : IntOp.cmpi .eq a b = 0#1 := by
      show BitVec.ofBool (a == b) = 0#1
      rw [beq_eq_false_iff_ne.mpr h]
      rfl
    rw [e]
    have e0 : ((0#1 : BitVec 1).setWidth 32).toInt = 0 := by decide
    rw [e0]
    norm_num

/-- The one-hot matrix of the segment numbers at entry `(t, g)`: one when row `t`'s segment number, read signed, is
    `g`, zero otherwise. The column of numbers is copied along the 1024 columns and compared with the column index. -/
theorem onehot_apply (v46 : Vec Ideal S2000x1 .i32) (t : Fin 2000) (g : Fin 1024) :
    (truncf .bf16 (sitofp (F := Ideal) .f32 (extui 32 (cmpi .eq
        (broadcastTo S2000x1024 (shapeCast S2000x1 v46 shapeCasts_S2000x1_S2000x1) broadcasts_S2000x1_S2000x1024)
        (iota .tc S2000x1024 32 [1] iota_S2000x1024_d1_w32)) natLt_1_32)) bitsLt_bf16_f32 : FVec Ideal S2000x1024 .bf16) (ix2 t g)
      = if (v46 (ix2 t (0 : Fin 1))).toInt = (g.val : Int) then (1 : EReal) else 0 := by
  rw [truncf_apply, sitofp_apply, extui_apply]
  show FloatOps.sitofp (F := Ideal) .f32 ((IntOp.cmpi .eq
      (broadcastTo S2000x1024 (shapeCast S2000x1 v46 shapeCasts_S2000x1_S2000x1) broadcasts_S2000x1_S2000x1024 (ix2 t g))
      (iota .tc S2000x1024 32 [1] iota_S2000x1024_d1_w32 (ix2 t g))).setWidth 32) = _
  rw [eqWord_apply, broadcastTo_a1_ab_apply, shapeCast_self, iota_single_apply]
  show (if v46 (ix2 t (0 : Fin 1)) = BitVec.ofNat 32 g.val then (1 : EReal) else 0) = _
  exact if_congr (LibBlockSum.eq_ofNat_iff_toInt_eq _ _ (by have := g.isLt; omega)) rfl rfl

/-- A layer only reads its own row of its input: two inputs with the same row give the same row of the layer. -/
theorem dense_congr_row {R : Type} (x x' : R → Fin 256 → EReal) (W : Fin 256 → Fin 256 → EReal) (b : Fin 256 → EReal)
    (r : R) (h : ∀ k, x r k = x' r k) (d : Fin 256) : Spec.dense x W b r d = Spec.dense x' W b r d := by
  unfold Spec.dense
  simp only [h]

/-- The gate network's first layer at an entry. -/
theorem pay5_apply (x0 : Vec Ideal S2000x256 .f32) (x6 : Vec Ideal S256x256 .f32) (x7 : Vec Ideal S256 .f32)
    (t : Fin 2000) (d : Fin 256) :
    (k0_pay5 (F := Ideal) x0 x6 x7 : FVec Ideal S2000x256 .bf16) (ix2 t d)
      = Spec.dense (Spec.mat x0) (Spec.mat x6) (Spec.vec x7) t d := by
  unfold k0_pay5 k0_pay3
  exact point_dense_apply (truncf .bf16 x0 bitsLt_bf16_f32) (truncf .bf16 x6 bitsLt_bf16_f32) x7 t d

/-- The weight network at an entry: two layers. -/
theorem pay4_apply (x0 : Vec Ideal S2000x256 .f32) (x2 : Vec Ideal S256x256 .f32) (x3 : Vec Ideal S256 .f32)
    (x4 : Vec Ideal S256x256 .f32) (x5 : Vec Ideal S256 .f32) (t : Fin 2000) (d : Fin 256) :
    (k0_pay4 (F := Ideal) x0 x2 x3 x4 x5 : FVec Ideal S2000x256 .f32) (ix2 t d)
      = Spec.mlp (Spec.mat x0) (Spec.mat x2) (Spec.vec x3) (Spec.mat x4) (Spec.vec x5) t d := by
  unfold k0_pay4 k0_pay3
  refine (point_dense_apply _ (truncf .bf16 x4 bitsLt_bf16_f32) x5 t d).trans ?_
  exact dense_congr_row _ _ _ _ t
    (fun k => point_dense_apply (truncf .bf16 x0 bitsLt_bf16_f32) (truncf .bf16 x2 bitsLt_bf16_f32) x3 t k) d

/-- The accumulator update at entry `(g, d)`: the entry before, plus the sum over the point's 2000 rows of the
    one-hot entry `(t, g)` times the gated entry `(t, d)` (the logistic function of the gate's second layer, times
    the weight entry). -/
theorem pay1_apply (v23 : FVec Ideal S2000x256 .f32) (v33 : FVec Ideal S2000x256 .bf16) (v35 : FVec Ideal S256x256 .bf16)
    (v36 : Vec Ideal S256 .f32) (v46 : Vec Ideal S2000x1 .i32) (v55 : Vec Ideal S1x1024x256 .f32) (g : Fin 1024) (d : Fin 256) :
    (k0_pay1 (F := Ideal) v23 v33 v35 v36 v46 v55 : FVec Ideal S1x1024x256 .f32) (ix3 (0 : Fin 1) g d)
      = v55 (ix3 (0 : Fin 1) g d)
        + ∑ t : Fin 2000, (if (v46 (ix2 t (0 : Fin 1))).toInt = (g.val : Int) then (1 : EReal) else 0)
            * (Ideal.logistic (Spec.dense (Spec.mat v33) (Spec.mat v35) (Spec.vec v36) t d) * v23 (ix2 t d)) := by
  unfold k0_pay1
  dsimp only
  rw [shapeCast_ab_1ab_apply, addf_apply, shapeCast_1ab_ab_apply,
    matmul_colcol_zero_apply dot_S2000x1024_S2000x256_S1024x256_0_0_1_1_n_n rfl rfl rfl rfl rfl rfl]
  congr 1
  refine Finset.sum_congr rfl fun t _ => ?_
  rw [onehot_apply, truncf_apply, mulf_apply]
  congr 1
  congr 1
  exact congrArg Ideal.logistic (point_dense_apply v33 v35 v36 t d)

/-- The zero block is zero at every entry. -/
theorem zero_apply (j : S1x1024x256.Idx) : (k0_pay2 (F := Ideal) : Vec Ideal S1x1024x256 .f32) j = 0 := by
  unfold k0_pay2
  show Ideal.ofBits .f32 0x00000000#32 = 0
  exact Ideal.ofBits_zero_f32

/-- Entry (g, d) after a point: the entry before, plus the gated rows of the point whose segment number is g. -/
theorem step_apply (x0 : Vec Ideal S2000x256 .f32) (x1 : Vec Ideal S2000x1 .i32) (x2 : Vec Ideal S256x256 .f32) (x3 : Vec Ideal S256 .f32) (x4 : Vec Ideal S256x256 .f32) (x5 : Vec Ideal S256 .f32) (x6 : Vec Ideal S256x256 .f32) (x7 : Vec Ideal S256 .f32) (x8 : Vec Ideal S256x256 .f32) (x9 : Vec Ideal S256 .f32) (acc : Vec Ideal S1x1024x256 .f32) (g : Fin 1024) (d : Fin 256) :
    step (F := Ideal) x0 x1 x2 x3 x4 x5 x6 x7 x8 x9 acc (ix3 (0 : Fin 1) g d)
      = acc (ix3 (0 : Fin 1) g d)
        + ∑ t : Fin 2000, if (x1 (ix2 t (0 : Fin 1))).toInt = (g.val : Int) then Spec.gatedRow (Spec.mat x0) (Spec.mat x2) (Spec.vec x3) (Spec.mat x4) (Spec.vec x5) (Spec.mat x6) (Spec.vec x7) (Spec.mat x8) (Spec.vec x9) t d else 0 := by
  show (k0_pay1 (F := Ideal) (k0_pay4 x0 x2 x3 x4 x5) (k0_pay5 x0 x6 x7) (k0_pay6 x8) x9 x1 acc
      : FVec Ideal S1x1024x256 .f32) (ix3 (0 : Fin 1) g d) = _
  rw [pay1_apply]
  congr 1
  refine Finset.sum_congr rfl fun t _ => ?_
  rw [LibBlockSum.ite_one_zero_mul, pay4_apply]
  refine if_congr Iff.rfl ?_ rfl
  -- the gate's second layer reads the first layer's row; a change of format is the identity
  have hg : Spec.dense (Spec.mat (k0_pay5 (F := Ideal) x0 x6 x7)) (Spec.mat (k0_pay6 (F := Ideal) x8)) (Spec.vec x9) t d
      = Spec.mlp (Spec.mat x0) (Spec.mat x6) (Spec.vec x7) (Spec.mat x8) (Spec.vec x9) t d :=
    dense_congr_row _ _ _ _ t (fun k => pay5_apply x0 x6 x7 t k) d
  rw [hg]
  rfl

end Cert.KernelIdeal.Pool

end
-- ==== Proof.KBlocks.lean ====
/-
  The pooling region's input blocks, from the launch contents of the arguments.

  Grid point t = 50·c + i is tile t of the rows: its block of `x` is rows 2000·t … 2000·t + 1999, its block of the
  segment numbers (a column [200000, 1], the reshape of `batch`) the same rows; each weight and bias window is its
  whole array at every point.
-/
import proofs.«425977_j5583457485045_2_alg».proof.Proof.Gen.KernelIdeal.Frame
import proofs.«425977_j5583457485045_2_alg».proof.Proof.Spec
import proofs.«425977_j5583457485045_2_alg».proof.Proof.LibKeepdims
import Idealize.ShloMosaic.Lib.Pipeline.Value
import Idealize.ShloMosaic.Lib.StableHlo.Run
import Idealize.ShloMosaic.Lib.ValueIdx

noncomputable section

namespace Cert.KernelIdeal.Pool

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- A grid point of the pooling region as a tile number. -/
def tile (t : Fin cfg0.N) : Fin 100 := ⟨t.val, (show cfg0.N = 100 from N_0) ▸ t.isLt⟩

theorem tile_val (t : Fin cfg0.N) : (tile t).val = t.val := rfl

/-- The point's block of `x`. -/
abbrev blk0 (c : Dev nD) (t : Fin cfg0.N) : Vec Ideal S2000x256 .f32 := iblk0 (V1 m ρ) c 0 t
/-- The point's block of the segment numbers. -/
abbrev blk1 (c : Dev nD) (t : Fin cfg0.N) : Vec Ideal S2000x1 .i32 := iblk0 (V1 m ρ) c 1 t
abbrev blk2 (c : Dev nD) (t : Fin cfg0.N) : Vec Ideal S256x256 .f32 := iblk0 (V1 m ρ) c 2 t
abbrev blk3 (c : Dev nD) (t : Fin cfg0.N) : Vec Ideal S256 .f32 := iblk0 (V1 m ρ) c 3 t
abbrev blk4 (c : Dev nD) (t : Fin cfg0.N) : Vec Ideal S256x256 .f32 := iblk0 (V1 m ρ) c 4 t
abbrev blk5 (c : Dev nD) (t : Fin cfg0.N) : Vec Ideal S256 .f32 := iblk0 (V1 m ρ) c 5 t
abbrev blk6 (c : Dev nD) (t : Fin cfg0.N) : Vec Ideal S256x256 .f32 := iblk0 (V1 m ρ) c 6 t
abbrev blk7 (c : Dev nD) (t : Fin cfg0.N) : Vec Ideal S256 .f32 := iblk0 (V1 m ρ) c 7 t
abbrev blk8 (c : Dev nD) (t : Fin cfg0.N) : Vec Ideal S256x256 .f32 := iblk0 (V1 m ρ) c 8 t
abbrev blk9 (c : Dev nD) (t : Fin cfg0.N) : Vec Ideal S256 .f32 := iblk0 (V1 m ρ) c 9 t

/-! ## The arrays the pooling region finds

Before the region the host performs one operation, the reshape of the segment numbers `[200000]` to the column
`[200000, 1]`. Every buffer other than that column holds what it held at launch; the column holds the reshape. -/

/-- A buffer other than the column of segment numbers is, at the region's entry, as launched. -/
theorem V1_of_ne (c : Dev nD) (b : Ref sig .tc) (hb : b ≠ main_v0) : V1 m ρ c b = m ((c : Thread nD τ).loc b) :=
  (StableHlo.after_of_forall_not_mem (b := Proc.devRef .tc b) _ _ (List.forall_iff_forall_mem.mp (by
      simp only [hostOps0, List.Forall, StableHlo.reshape_writes, Finset.mem_singleton]
      exact StableHlo.devRef_ne_of_ne hb))).trans rfl

/-- The column of segment numbers is, at the region's entry, the launched segment numbers cast to `[200000, 1]`. -/
theorem V1_v0 (c : Dev nD) : V1 m ρ c main_v0
    = shapeCast S200000x1 (m ((c : Thread nD τ).loc main_arg1)) shapeCasts_S200000_S200000x1 := by
  show StableHlo.after hostOps0 _ (Proc.devRef .tc main_v0) = _
  after_results
  rfl

/-! ## The block numbers at the 100 grid points

At the flat point `t = 50·c + i` of the grid `(2, 50)` the windows of `x` and of the segment numbers take block
`(t, 0)`; every weight and bias window takes block `0` on each axis. -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 1) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 1) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 1) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 1) = 0 :=
  (by decide +kernel : ∀ t : Fin grid0.N, _)

/-- Row `r` of tile `s` is row `2000·s + r` of the whole. -/
theorem rowOf_val (s : Fin 100) (r : Fin 2000) : (Spec.rowOf s r).val = 2000 * s.val + r.val :=
  Cert.LibBlockSum.blockIdx_val _ _ _

/-! ## The blocks

A block's coordinate on an axis is the block number times the block's extent plus the coordinate inside the block. -/

/-- Row r of the point's block of `x` is row r of tile t of `x`. -/
theorem blk0_apply (c : Dev nD) (t : Fin cfg0.N) (r : Fin 2000) (k : Fin 256) :
    blk0 m ρ c t (ix2 r k) = Spec.mat (m ((c : Thread nD τ).loc main_arg0)) (Spec.rowOf (tile t) r) k := by
  unfold blk0 iblk0
  rw [View.read_apply]
  show V1 m ρ c main_arg0 (((cfg0.win 0).blk t).view.emb (ix2 r k))
    = m ((c : Thread nD τ).loc main_arg0) (ix2 (Spec.rowOf (tile t) r) k)
  rw [V1_of_ne m ρ c main_arg0 (by decide)]
  congr 1
  funext a
  apply Fin.ext
  match a with
  | ⟨0, _⟩ =>
    show win0_0.index t (0 : Fin 2) * 2000 + 1 * r.val = (Spec.rowOf (tile t) r).val
    rw [(idx0 t).1, rowOf_val, tile_val]; omega
  | ⟨1, _⟩ =>
    show win0_0.index t (1 : Fin 2) * 256 + 1 * k.val = k.val
    rw [(idx0 t).2]; omega

/-- Row r of the point's block of segment numbers is the segment number of row r of tile t. -/
theorem blk1_apply (c : Dev nD) (t : Fin cfg0.N) (r : Fin 2000) :
    blk1 m ρ c t (ix2 r (0 : Fin 1)) = Spec.vec (m ((c : Thread nD τ).loc main_arg1)) (Spec.rowOf (tile t) r) := by
  unfold blk1 iblk0
  rw [View.read_apply]
  show V1 m ρ c main_v0 (((cfg0.win 1).blk t).view.emb (ix2 r (0 : Fin 1)))
    = m ((c : Thread nD τ).loc main_arg1) (ix1 (Spec.rowOf (tile t) r))
  rw [V1_v0]
  have he : ((cfg0.win 1).blk t).view.emb (ix2 r (0 : Fin 1)) = ix2 (Spec.rowOf (tile t) r) (0 : Fin 1) := by
    funext a
    apply Fin.ext
    match a with
    | ⟨0, _⟩ =>
      show win0_1.index t (0 : Fin 2) * 2000 + 1 * r.val = (Spec.rowOf (tile t) r).val
      rw [(idx1 t).1, rowOf_val, tile_val]; omega
    | ⟨1, _⟩ =>
      show win0_1.index t (1 : Fin 2) * 1 + 1 * 0 = 0
      rw [(idx1 t).2]
  rw [he]
  exact shapeCast_a_a1_apply _ _ _ _

/-- Each weight or bias block is its whole argument array. -/
theorem blk2_eq (c : Dev nD) (t : Fin cfg0.N) : blk2 m ρ c t = m ((c : Thread nD τ).loc main_arg2) := by
  funext j
  unfold blk2 iblk0
  rw [View.read_apply]
  show V1 m ρ c main_arg2 (((cfg0.win 2).blk t).view.emb j) = m ((c : Thread nD τ).loc main_arg2) j
  rw [V1_of_ne m ρ c main_arg2 (by decide)]
  congr 1
  funext a
  apply Fin.ext
  match a with
  | ⟨0, _⟩ =>
    show win0_2.index t (0 : Fin 2) * 256 + 1 * (j 0).val = (j 0).val
    rw [(idx2 t).1]; omega
  | ⟨1, _⟩ =>
    show win0_2.index t (1 : Fin 2) * 256 + 1 * (j 1).val = (j 1).val
    rw [(idx2 t).2]; omega
theorem blk3_eq (c : Dev nD) (t : Fin cfg0.N) : blk3 m ρ c t = m ((c : Thread nD τ).loc main_arg3) := by
  funext j
  unfold blk3 iblk0
  rw [View.read_apply]
  show V1 m ρ c main_arg3 (((cfg0.win 3).blk t).view.emb j) = m ((c : Thread nD τ).loc main_arg3) j
  rw [V1_of_ne m ρ c main_arg3 (by decide)]
  congr 1
  funext a
  apply Fin.ext
  match a with
  | ⟨0, _⟩ =>
    show win0_3.index t (0 : Fin 1) * 256 + 1 * (j 0).val = (j 0).val
    rw [idx3 t]; omega
theorem blk4_eq (c : Dev nD) (t : Fin cfg0.N) : blk4 m ρ c t = m ((c : Thread nD τ).loc main_arg4) := by
  funext j
  unfold blk4 iblk0
  rw [View.read_apply]
  show V1 m ρ c main_arg4 (((cfg0.win 4).blk t).view.emb j) = m ((c : Thread nD τ).loc main_arg4) j
  rw [V1_of_ne m ρ c main_arg4 (by decide)]
  congr 1
  funext a
  apply Fin.ext
  match a with
  | ⟨0, _⟩ =>
    show win0_4.index t (0 : Fin 2) * 256 + 1 * (j 0).val = (j 0).val
    rw [(idx4 t).1]; omega
  | ⟨1, _⟩ =>
    show win0_4.index t (1 : Fin 2) * 256 + 1 * (j 1).val = (j 1).val
    rw [(idx4 t).2]; omega
theorem blk5_eq (c : Dev nD) (t : Fin cfg0.N) : blk5 m ρ c t = m ((c : Thread nD τ).loc main_arg5) := by
  funext j
  unfold blk5 iblk0
  rw [View.read_apply]
  show V1 m ρ c main_arg5 (((cfg0.win 5).blk t).view.emb j) = m ((c : Thread nD τ).loc main_arg5) j
  rw [V1_of_ne m ρ c main_arg5 (by decide)]
  congr 1
  funext a
  apply Fin.ext
  match a with
  | ⟨0, _⟩ =>
    show win0_5.index t (0 : Fin 1) * 256 + 1 * (j 0).val = (j 0).val
    rw [idx5 t]; omega
theorem blk6_eq (c : Dev nD) (t : Fin cfg0.N) : blk6 m ρ c t = m ((c : Thread nD τ).loc main_arg6) := by
  funext j
  unfold blk6 iblk0
  rw [View.read_apply]
  show V1 m ρ c main_arg6 (((cfg0.win 6).blk t).view.emb j) = m ((c : Thread nD τ).loc main_arg6) j
  rw [V1_of_ne m ρ c main_arg6 (by decide)]
  congr 1
  funext a
  apply Fin.ext
  match a with
  | ⟨0, _⟩ =>
    show win0_6.index t (0 : Fin 2) * 256 + 1 * (j 0).val = (j 0).val
    rw [(idx6 t).1]; omega
  | ⟨1, _⟩ =>
    show win0_6.index t (1 : Fin 2) * 256 + 1 * (j 1).val = (j 1).val
    rw [(idx6 t).2]; omega
theorem blk7_eq (c : Dev nD) (t : Fin cfg0.N) : blk7 m ρ c t = m ((c : Thread nD τ).loc main_arg7) := by
  funext j
  unfold blk7 iblk0
  rw [View.read_apply]
  show V1 m ρ c main_arg7 (((cfg0.win 7).blk t).view.emb j) = m ((c : Thread nD τ).loc main_arg7) j
  rw [V1_of_ne m ρ c main_arg7 (by decide)]
  congr 1
  funext a
  apply Fin.ext
  match a with
  | ⟨0, _⟩ =>
    show win0_7.index t (0 : Fin 1) * 256 + 1 * (j 0).val = (j 0).val
    rw [idx7 t]; omega
theorem blk8_eq (c : Dev nD) (t : Fin cfg0.N) : blk8 m ρ c t = m ((c : Thread nD τ).loc main_arg8) := by
  funext j
  unfold blk8 iblk0
  rw [View.read_apply]
  show V1 m ρ c main_arg8 (((cfg0.win 8).blk t).view.emb j) = m ((c : Thread nD τ).loc main_arg8) j
  rw [V1_of_ne m ρ c main_arg8 (by decide)]
  congr 1
  funext a
  apply Fin.ext
  match a with
  | ⟨0, _⟩ =>
    show win0_8.index t (0 : Fin 2) * 256 + 1 * (j 0).val = (j 0).val
    rw [(idx8 t).1]; omega
  | ⟨1, _⟩ =>
    show win0_8.index t (1 : Fin 2) * 256 + 1 * (j 1).val = (j 1).val
    rw [(idx8 t).2]; omega
theorem blk9_eq (c : Dev nD) (t : Fin cfg0.N) : blk9 m ρ c t = m ((c : Thread nD τ).loc main_arg9) := by
  funext j
  unfold blk9 iblk0
  rw [View.read_apply]
  show V1 m ρ c main_arg9 (((cfg0.win 9).blk t).view.emb j) = m ((c : Thread nD τ).loc main_arg9) j
  rw [V1_of_ne m ρ c main_arg9 (by decide)]
  congr 1
  funext a
  apply Fin.ext
  match a with
  | ⟨0, _⟩ =>
    show win0_9.index t (0 : Fin 1) * 256 + 1 * (j 0).val = (j 0).val
    rw [idx9 t]; omega

end Cert.KernelIdeal.Pool

end
-- ==== Proof.LibAcc.lean ====
import Mathlib.Algebra.BigOperators.Fin

/-!
# An accumulator that is reset at the start of each stretch

The points `0, 1, …, B * T - 1` fall into `B` stretches of `T` consecutive points.  An accumulator that
holds the point's term at the first point of a stretch, and at every other point what the point before left
plus the point's term, holds at point `i` of stretch `b` the sum of the terms of the points `0, …, i` of that
stretch; at the stretch's last point, the sum over the whole stretch.
-/

namespace Cert.LibAcc

/-- Point `k` of stretch `b` is a point. -/
theorem idx_lt {T B : ℕ} (b : Fin B) {k : ℕ} (hk : k < T) : b.val * T + k < B * T :=
  calc b.val * T + k < b.val * T + T := Nat.add_lt_add_left hk _
    _ = (b.val + 1) * T := (Nat.succ_mul _ _).symm
    _ ≤ B * T := Nat.mul_le_mul_right T b.isLt

/-- Point `k` of a stretch has remainder `k`. -/
theorem mod_eq (b T k : ℕ) (hk : k < T) : (b * T + k) % T = k := by
  rw [Nat.add_comm, Nat.add_mul_mod_self_right, Nat.mod_eq_of_lt hk]

section
variable {M : Type} [AddCommMonoid M] (T B : ℕ) (acc s : (n : ℕ) → n < B * T → M)

/-- The accumulator at equal points. -/
theorem acc_congr {n n' : ℕ} (e : n = n') (h : n < B * T) (h' : n' < B * T) : acc n h = acc n' h' := by
  subst e; rfl

variable (hreset : ∀ n (hn : n < B * T), n % T = 0 → acc n hn = s n hn)
  (hstep : ∀ n (hn : n < B * T) (h : n % T ≠ 0), acc n hn = acc (n - 1) (by omega) + s n hn)

include hreset hstep in
/-- At point `k` of stretch `b` the accumulator holds the sum of the stretch's terms up to `k`. -/
theorem acc_prefix (b : Fin B) : ∀ (k : ℕ) (hk : k < T),
    acc (b.val * T + k) (idx_lt b hk)
      = ∑ i' : Fin (k + 1), s (b.val * T + i'.val) (idx_lt b (Nat.lt_of_lt_of_le i'.isLt hk))
  | 0, hk => by
    rw [Fin.sum_univ_one]
    exact hreset _ _ (mod_eq b.val T 0 hk)
  | k + 1, hk => by
    rw [Fin.sum_univ_castSucc]
    have hmod : (b.val * T + (k + 1)) % T ≠ 0 := by rw [mod_eq b.val T (k + 1) hk]; omega
    rw [hstep _ _ hmod]
    refine congrArg₂ (· + ·) ?_ rfl
    exact (acc_congr T B acc (by omega) _ (idx_lt b (Nat.lt_of_succ_lt hk))).trans
      (acc_prefix b k (Nat.lt_of_succ_lt hk))

include hreset hstep in
/-- The same over the points of a stretch as `Fin T`. -/
theorem acc_stretch (b : Fin B) (i : Fin T) :
    acc (b.val * T + i.val) (idx_lt b i.isLt)
      = ∑ i' : Fin (i.val + 1), s (b.val * T + i'.val) (idx_lt b (Nat.lt_of_lt_of_le i'.isLt i.isLt)) :=
  acc_prefix T B acc s hreset hstep b i.val i.isLt

include hreset hstep in
/-- At the last point of a stretch the accumulator holds the stretch's sum. -/
theorem acc_last (hT : 0 < T) (b : Fin B) :
    acc (b.val * T + (T - 1)) (idx_lt b (by omega)) = ∑ i : Fin T, s (b.val * T + i.val) (idx_lt b i.isLt) := by
  cases T with
  | zero => omega
  | succ T' => exact acc_prefix (T' + 1) B acc s hreset hstep b T' (Nat.lt_succ_self T')

end

section
variable {M : Type} [AddCommMonoid M] (T B : ℕ) (acc s : (n : ℕ) → n < B * T → M) (z : M) (hz : z = 0)
  (hreset : ∀ n (hn : n < B * T), n % T = 0 → acc n hn = z + s n hn)
  (hstep : ∀ n (hn : n < B * T) (h : n % T ≠ 0), acc n hn = acc (n - 1) (by omega) + s n hn)

include hz hreset hstep in
/-- The same when the first point of a stretch adds its term to a zero. -/
theorem acc_stretch_zero (b : Fin B) (i : Fin T) :
    acc (b.val * T + i.val) (idx_lt b i.isLt)
      = ∑ i' : Fin (i.val + 1), s (b.val * T + i'.val) (idx_lt b (Nat.lt_of_lt_of_le i'.isLt i.isLt)) :=
  acc_stretch T B acc s (fun n hn h => by rw [hreset n hn h, hz, zero_add]) hstep b i

include hz hreset hstep in
theorem acc_last_zero (hT : 0 < T) (b : Fin B) :
    acc (b.val * T + (T - 1)) (idx_lt b (by omega)) = ∑ i : Fin T, s (b.val * T + i.val) (idx_lt b i.isLt) :=
  acc_last T B acc s (fun n hn h => by rw [hreset n hn h, hz, zero_add]) hstep hT b

end

end Cert.LibAcc
-- ==== Proof.KPool.lean ====
/-
  What the pooling region leaves in its result array [2, 1024, 256]: half c' of it holds, at (g, d), the sum over the 50
  tiles of that half of the tile's contribution to segment g.

  The accumulator block of half c' is reset at the half's first grid point, gains one tile's contribution at each of
  its 50 points, and is written back once, after the half's last point; the two written blocks are the two halves of
  the array.
-/
import proofs.«425977_j5583457485045_2_alg».proof.Proof.KPayload
import proofs.«425977_j5583457485045_2_alg».proof.Proof.KBlocks
import proofs.«425977_j5583457485045_2_alg».proof.Proof.KArrays
import proofs.«425977_j5583457485045_2_alg».proof.Proof.LibAcc
import Idealize.ShloMosaic.Lib.Pipeline.Value
import Mathlib.Tactic.NormNum

noncomputable section

open scoped BigOperators

namespace Cert.KernelIdeal.Pool

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The gated rows of all 200000 rows of `x`, from the launch contents of the arguments. -/
abbrev rows (c : Dev nD) : Fin 200000 → Fin 256 → EReal :=
  Spec.gatedRow (Spec.mat (m ((c : Thread nD τ).loc main_arg0))) (Spec.mat (m ((c : Thread nD τ).loc main_arg2))) (Spec.vec (m ((c : Thread nD τ).loc main_arg3))) (Spec.mat (m ((c : Thread nD τ).loc main_arg4))) (Spec.vec (m ((c : Thread nD τ).loc main_arg5))) (Spec.mat (m ((c : Thread nD τ).loc main_arg6))) (Spec.vec (m ((c : Thread nD τ).loc main_arg7))) (Spec.mat (m ((c : Thread nD τ).loc main_arg8))) (Spec.vec (m ((c : Thread nD τ).loc main_arg9)))

/-- The rows' segment numbers, from the launch contents of `batch`. -/
abbrev segs (c : Dev nD) : Fin 200000 → BitVec 32 := Spec.vec (m ((c : Thread nD τ).loc main_arg1))

/-- ONE GRID POINT AT AN ENTRY, in the arguments' terms: entry (g, d) of the accumulator block gains what tile t adds to
    segment g — the point's block of `x` is tile t's rows, its block of segment numbers those rows' numbers, the weights
    the whole argument arrays, and a layer only looks at its own row. -/
theorem step_tile (c : Dev nD) (t : Fin cfg0.N) (acc : Vec Ideal S1x1024x256 .f32) (g : Fin 1024) (d : Fin 256) :
    step (F := Ideal) (blk0 m ρ c t) (blk1 m ρ c t) (blk2 m ρ c t) (blk3 m ρ c t) (blk4 m ρ c t) (blk5 m ρ c t) (blk6 m ρ c t) (blk7 m ρ c t) (blk8 m ρ c t) (blk9 m ρ c t) acc (ix3 (0 : Fin 1) g d)
      = acc (ix3 (0 : Fin 1) g d) + Spec.tileSum (segs m c) (rows m c) (tile t) g d := by
  rw [step_apply]
  refine congrArg (acc (ix3 (0 : Fin 1) g d) + ·) ?_
  unfold Spec.tileSum
  refine Finset.sum_congr rfl fun r _ => ?_
  rw [blk1_apply, blk2_eq, blk3_eq, blk4_eq, blk5_eq, blk6_eq, blk7_eq, blk8_eq, blk9_eq,
    show Spec.mat (blk0 m ρ c t) = fun r k => Spec.mat (m ((c : Thread nD τ).loc main_arg0)) (Spec.rowOf (tile t) r) k from
      funext fun r => funext fun k => blk0_apply m ρ c t r k]
  rfl

/-- The region's 100 grid points are two halves of 50. -/
theorem hN : cfg0.N = 2 * 50 := N_0

/-- Every grid point is below 100. -/
theorem lt_N (t : Fin cfg0.N) : t.val < 2 * 50 := lt_of_lt_of_eq t.isLt hN

/-- Entry (g, d) of the accumulator block after point n. -/
def accAt (c : Dev nD) (g : Fin 1024) (d : Fin 256) : (n : ℕ) → n < 2 * 50 → EReal :=
  fun n hn => (outsAt0 (V1 m ρ) c n (by rw [hN]; exact hn) : Vec Ideal S1x1024x256 .f32) (ix3 (0 : Fin 1) g d)

/-- What tile n adds to entry (g, d). -/
def termAt (c : Dev nD) (g : Fin 1024) (d : Fin 256) : (n : ℕ) → n < 2 * 50 → EReal :=
  fun n hn => Spec.tileSum (segs m c) (rows m c) ⟨n, hn⟩ g d

/-- At the first point of a half the block is the zero block plus the tile's contribution. -/
theorem acc_reset (c : Dev nD) (g : Fin 1024) (d : Fin 256) :
    ∀ n (hn : n < 2 * 50), n % 50 = 0 → accAt m ρ c g d n hn = 0 + termAt m c g d n hn := by
  intro n hn h0
  have hn' : n < cfg0.N := by rw [hN]; exact hn
  show (outsAt0 (V1 m ρ) c n _ : Vec Ideal S1x1024x256 .f32) (ix3 (0 : Fin 1) g d) = _
  rw [outsAt0_A (V1 m ρ) c ⟨n, hn'⟩ h0, out_A]
  refine (step_tile m ρ c ⟨n, hn'⟩ (k0_pay2 (F := Ideal)) g d).trans ?_
  rw [zero_apply]
  rfl

/-- At every other point it is what the point before left plus the tile's contribution. -/
theorem acc_step (c : Dev nD) (g : Fin 1024) (d : Fin 256) :
    ∀ n (hn : n < 2 * 50) (h : n % 50 ≠ 0),
      accAt m ρ c g d n hn = accAt m ρ c g d (n - 1) (by omega) + termAt m c g d n hn := by
  intro n hn h0
  have hn' : n < cfg0.N := by rw [hN]; exact hn
  show (outsAt0 (V1 m ρ) c n _ : Vec Ideal S1x1024x256 .f32) (ix3 (0 : Fin 1) g d)
    = (outsAt0 (V1 m ρ) c (n - 1) _ : Vec Ideal S1x1024x256 .f32) (ix3 (0 : Fin 1) g d) + _
  rw [outsAt0_B (V1 m ρ) c ⟨n, hn'⟩ h0, out_B]
  exact step_tile m ρ c ⟨n, hn'⟩ _ g d

/-- At the last point of a half the block holds the sum of the half's 50 tiles' contributions. -/
theorem outs_last (c : Dev nD) (t : Fin cfg0.N) (h49 : t.val % 50 = 49) (g : Fin 1024) (d : Fin 256) :
    (outsAt0 (V1 m ρ) c t.val t.isLt : Vec Ideal S1x1024x256 .f32) (ix3 (0 : Fin 1) g d)
      = ∑ i : Fin 50, Spec.tileSum (segs m c) (rows m c)
          (Spec.tileOf ⟨t.val / 50, by have := lt_N t; omega⟩ i) g d := by
  have ht : t.val < 2 * 50 := lt_N t
  have hb : t.val / 50 < 2 := by omega
  have e : t.val = (⟨t.val / 50, hb⟩ : Fin 2).val * 50 + (50 - 1) := by
    show t.val = t.val / 50 * 50 + (50 - 1); omega
  have key := Cert.LibAcc.acc_last_zero 50 2 (accAt m ρ c g d) (termAt m c g d) 0 rfl
    (acc_reset m ρ c g d) (acc_step m ρ c g d) (by norm_num) ⟨t.val / 50, hb⟩
  have e1 := Cert.LibAcc.acc_congr 50 2 (accAt m ρ c g d) e ht
    (Cert.LibAcc.idx_lt (⟨t.val / 50, hb⟩ : Fin 2) (by norm_num : 50 - 1 < 50))
  refine (show _ = accAt m ρ c g d t.val ht from rfl).trans (e1.trans (key.trans ?_))
  refine Finset.sum_congr rfl fun i _ => ?_
  show Spec.tileSum _ _ ⟨t.val / 50 * 50 + i.val, _⟩ g d = Spec.tileSum _ _ (Spec.tileOf _ i) g d
  congr 1
  exact Fin.ext (by show t.val / 50 * 50 + i.val = 50 * (t.val / 50) + i.val; omega)

/-- The result array as one function: half c' at (g, d) is the sum of that half's tiles' contributions to segment g. -/
def poolG (c : Dev nD) : S2x1024x256.Idx → EReal :=
  fun j => ∑ i : Fin 50, Spec.tileSum (segs m c) (rows m c) (Spec.tileOf (j 0) i) (j 1) (j 2)

/-- The output window's block at point t is half t / 50, whole on the other two axes. -/
theorem idx_facts10 : ∀ t : Fin cfg0.N, win0_10.index t (0 : Fin 3) = t.val / 50
    ∧ win0_10.index t (1 : Fin 3) = 0 ∧ win0_10.index t (2 : Fin 3) = 0 :=
  (by decide +kernel : ∀ t : Fin grid0.N, _)

/-- What a writing-back point (the last of its half) writes is its half of `poolG`. -/
theorem flushed_eq (c : Dev nD) (t : Fin cfg0.N) (hf : (cfg0.win 10).flush t = true) :
    (dat0 (V1 m ρ) c).flushed 10 t = ((cfg0.win 10).blk t).view.read (Elt Ideal) (poolG m c) := by
  have h49 : t.val % 50 = 49 := (flush0_10 t).mp hf
  obtain ⟨e0, e1, e2⟩ := idx_facts10 t
  show (cfg0.win 10).cut (grid0.coords t) ((dat0 (V1 m ρ) c).after 10 t) = _
  rw [after0_10]
  funext y
  show (outsAt0 (V1 m ρ) c t.val t.isLt : Vec Ideal S1x1024x256 .f32) y
    = poolG m c (((cfg0.win 10).blk t).view.emb y)
  obtain ⟨u, g, d, rfl⟩ : ∃ (u : Fin 1) (g : Fin 1024) (d : Fin 256), y = ix3 u g d := ⟨y 0, y 1, y 2, eq_ix3 y⟩
  obtain rfl : u = 0 := Subsingleton.elim _ _
  rw [outs_last m ρ c t h49 g d]
  have hemb : ((cfg0.win 10).blk t).view.emb (ix3 (0 : Fin 1) g d)
      = ix3 (⟨t.val / 50, by have := lt_N t; omega⟩ : Fin 2) g d := by
    funext a; apply Fin.ext
    match a with
    | ⟨0, _⟩ => show win0_10.index t (0 : Fin 3) * 1 + 1 * 0 = t.val / 50; omega
    | ⟨1, _⟩ => show win0_10.index t (1 : Fin 3) * 1024 + 1 * g.val = g.val; omega
    | ⟨2, _⟩ => show win0_10.index t (2 : Fin 3) * 256 + 1 * d.val = d.val; omega
  rw [hemb]
  rfl

/-- An index of the result array is in point t's block iff each coordinate is in the block's range on its axis. -/
theorem mem_blk10 (t : Fin cfg0.N) (i : S2x1024x256.Idx) :
    i ∈ ((cfg0.win 10).blk t).view.set ↔ ∀ a : Fin 3, win0_10.index t a * S1x1024x256.size a ≤ (i a).val
      ∧ (i a).val < win0_10.index t a * S1x1024x256.size a + S1x1024x256.size a := by
  show i ∈ ((View.whole main_v1).slice (win0_10.rect t)).set ↔ _
  rw [View.set_slice_whole, Rect.mem_set_unit]
  exact Iff.rfl

/-- The two written blocks are the two halves of the array, so it ends holding `poolG`. -/
theorem pool_arr (c : Dev nD) : (dat0 (V1 m ρ) c).arrAt 10 cfg0.N = poolG m c :=
  (dat0 (V1 m ρ) c).arrAt_eq_of_cover 10 (poolG m c) (flushed_eq m ρ c) fun i => by
    have h0 : (i 0).val < 2 := (i 0).isLt
    have h1 : (i 1).val < 1024 := (i 1).isLt
    have h2 : (i 2).val < 256 := (i 2).isLt
    have hlt : 50 * (i 0).val + 49 < cfg0.N := by rw [hN]; omega
    obtain ⟨e0, e1, e2⟩ := idx_facts10 ⟨50 * (i 0).val + 49, hlt⟩
    refine ⟨⟨50 * (i 0).val + 49, hlt⟩, (flush0_10 _).mpr (by show (50 * (i 0).val + 49) % 50 = 49; omega), ?_⟩
    rw [mem_blk10]
    intro a
    match a with
    | ⟨0, _⟩ =>
      show win0_10.index ⟨50 * (i 0).val + 49, hlt⟩ (0 : Fin 3) * 1 ≤ (i 0).val
        ∧ (i 0).val < win0_10.index ⟨50 * (i 0).val + 49, hlt⟩ (0 : Fin 3) * 1 + 1
      rw [e0]; show (50 * (i 0).val + 49) / 50 * 1 ≤ (i 0).val ∧ (i 0).val < (50 * (i 0).val + 49) / 50 * 1 + 1; omega
    | ⟨1, _⟩ =>
      show win0_10.index ⟨50 * (i 0).val + 49, hlt⟩ (1 : Fin 3) * 1024 ≤ (i 1).val
        ∧ (i 1).val < win0_10.index ⟨50 * (i 0).val + 49, hlt⟩ (1 : Fin 3) * 1024 + 1024
      rw [e1]; omega
    | ⟨2, _⟩ =>
      show win0_10.index ⟨50 * (i 0).val + 49, hlt⟩ (2 : Fin 3) * 256 ≤ (i 2).val
        ∧ (i 2).val < win0_10.index ⟨50 * (i 0).val + 49, hlt⟩ (2 : Fin 3) * 256 + 256
      rw [e2]; omega

/-- THE POOLING REGION'S RESULT at (c', g, d): the sum over the 50 tiles of half c' of what each adds to segment g. -/
theorem pool_eq (c : Dev nD) (c' : Fin 2) (g : Fin 1024) (d : Fin 256) :
    Arr.pooled m ρ c (ix3 c' g d)
      = ∑ i : Fin 50, Spec.tileSum (segs m c) (rows m c) (Spec.tileOf c' i) g d :=
  congrFun ((W2_arr m ρ c 10).trans (pool_arr m ρ c)) (ix3 c' g d)

end Cert.KernelIdeal.Pool

end
-- ==== Proof.KFinal.lean ====
/-
  What the second region leaves in the program's result array [1024, 256], from what the pooling region left in its
  result array P : [2, 1024, 256]: the two halves of P added entry by entry, then two layers with the weights
  `Wm1, bm1, Wm2, bm2` as launched.
-/
import proofs.«425977_j5583457485045_2_alg».proof.Proof.KArrays
import proofs.«425977_j5583457485045_2_alg».proof.Proof.Spec
import proofs.«425977_j5583457485045_2_alg».proof.Proof.LibDot
import Idealize.ShloMosaic.Lib.Pipeline.Value
import Idealize.ShloMosaic.Lib.ValueLayout
import Idealize.ShloMosaic.PureOps.Ideal.Laws

noncomputable section

open scoped BigOperators

namespace Cert.KernelIdeal.Final

open Cert.KernelIdeal Cert.KernelIdeal.Gen
open Idealize.ShloMosaic Idealize.ShloMosaic.TcCoe Idealize.ShloMosaic.ValueIdx Idealize.SL.Sem
open Idealize.ShloMosaic.Pipeline (Dat)

/-! ## The body's arithmetic at an entry -/

/-- The bias row, broadcast over the rows, at an entry. -/
theorem bias_apply (b : Vec Ideal S256 .f32) (g : Fin 1024) (d : Fin 256) :
    broadcastTo S1024x256 (shapeCast S1x256 b shapeCasts_S256_S1x256) broadcasts_S1x256_S1024x256 (ix2 g d) = b (ix1 d) :=
  (broadcastTo_1b_ab_apply _ broadcasts_S1x256_S1024x256 g d).trans
    (shapeCast_a_1a_apply b shapeCasts_S256_S1x256 0 d)

/-- One layer of the body at an entry: the row of the left operand times the weight matrix, plus the bias, cut off
    below at zero (a change of format is the identity on extended reals, and the zero word reads `0`). -/
theorem layer_apply (x : FVec Ideal S1024x256 .bf16) (W : Vec Ideal S256x256 .f32) (b : Vec Ideal S256 .f32)
    (g : Fin 1024) (d : Fin 256) :
    maximumf (addf (matmul dot_S1024x256_S256x256_S1024x256_1_0_0_1_n_n none x (truncf .bf16 W bitsLt_bf16_f32)
          (constant S1024x256 .f32 0x00000000#32))
        (broadcastTo S1024x256 (shapeCast S1x256 b shapeCasts_S256_S1x256) broadcasts_S1x256_S1024x256))
      (broadcast S1024x256 (Scalar.ofBits .f32 0x00000000#32)) (ix2 g d)
      = max ((∑ k : Fin 256, x (ix2 g k) * W (ix2 k d)) + b (ix1 d)) 0 := by
  rw [maximumf_apply, addf_apply, broadcast_apply, bias_apply,
    LibDot.matmul_zero_apply _ rfl rfl rfl rfl rfl rfl]
  show max ((∑ k : Fin 256, x (ix2 g k) * W (ix2 k d)) + b (ix1 d)) (Ideal.ofBits .f32 0x00000000#32) = _
  rw [Ideal.ofBits_zero_f32]

/-- Half `o` of the pooled array, as the body cuts it out and drops the unit axis, at an entry. -/
theorem half_apply (v0 : Vec Ideal S2x1024x256 .f32) (o : Fin 2) (h : S2x1024x256.Slices ![o.val, 0, 0] S1x1024x256)
    (g : Fin 1024) (k : Fin 256) :
    shapeCast S1024x256 (extractStridedSlice S1x1024x256 ![o.val, 0, 0]
        (shapeCast S2x1024x256 v0 shapeCasts_S2x1024x256_S2x1024x256) h) shapeCasts_S1x1024x256_S1024x256 (ix2 g k)
      = v0 (ix3 o g k) := by
  rw [shapeCast_self]
  refine (shapeCast_1ab_ab_apply _ shapeCasts_S1x1024x256_S1024x256 g k).trans ?_
  refine extractStridedSlice_apply _ v0 h (ix3 (0 : Fin 1) g k) (ix3 o g k) fun a => ?_
  match a with
  | ⟨0, _⟩ => exact (Nat.add_zero _).symm
  | ⟨1, _⟩ => exact (Nat.zero_add _).symm
  | ⟨2, _⟩ => exact (Nat.zero_add _).symm

/-- THE PAYLOAD AT AN ENTRY: two layers on the sum of the two halves. The outer layer's left operand at `(g, k)`
    is the inner layer at `(g, k)`, whose left operand at `(g, k')` is the sum of the two halves there. -/
theorem pay_apply (v0 : Vec Ideal S2x1024x256 .f32) (v8 : Vec Ideal S256x256 .f32) (v10 : Vec Ideal S256 .f32)
    (v18 : Vec Ideal S256x256 .f32) (v20 : Vec Ideal S256 .f32) (g : Fin 1024) (d : Fin 256) :
    k1_pay1 (F := Ideal) v0 v8 v10 v18 v20 (ix2 g d)
      = Spec.mlp (fun g k => v0 (ix3 (0 : Fin 2) g k) + v0 (ix3 (1 : Fin 2) g k))
          (Spec.mat v8) (Spec.vec v10) (Spec.mat v18) (Spec.vec v20) g d := by
  unfold k1_pay1 Spec.mlp Spec.dense
  refine (layer_apply _ v18 v20 g d).trans ?_
  refine congrArg (fun s => max (s + v20 (ix1 d)) 0) (Finset.sum_congr rfl fun k _ => ?_)
  refine congrArg (· * v18 (ix2 k d)) ?_
  refine (layer_apply _ v8 v10 g k).trans ?_
  refine congrArg (fun s => max (s + v10 (ix1 k)) 0) (Finset.sum_congr rfl fun k' _ => ?_)
  refine congrArg (· * v8 (ix2 k' k)) ?_
  exact congrArg₂ (· + ·) (half_apply v0 0 _ g k') (half_apply v0 1 _ g k')

/-! ## The body on whole buffers -/

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The body loads its five whole input buffers and stores one whole output buffer: what it leaves is the payload
    of the inputs' contents. -/
theorem out_eq (x0 : Vec Ideal S2x1024x256 .f32) (x1 : Vec Ideal S256x256 .f32) (x2 : Vec Ideal S256 .f32)
    (x3 : Vec Ideal S256x256 .f32) (x4 : Vec Ideal S256 .f32) :
    out1_5 (F := Ideal) x0 x1 x2 x3 x4 = k1_pay1 x0 x1 x2 x3 x4 := by
  unfold out1_5
  rw [View.canon_unit_zero hz2]
  rw [View.ld_unit_zero (S := S2x1024x256) hz3, View.ld_unit_zero (S := S256x256) hz2, View.ld_unit_zero (S := S256) hz1,
    View.ld_unit_zero (S := S256x256) hz2, View.ld_unit_zero (S := S256) hz1]

/-! ## The region's one point: every block is its whole array -/

variable (m : (ℓ : Loc nD τ sig) → Buf (Elt Ideal) ℓ) (ρ : Dev nD → PrngReg)

/-- The input windows' blocks at a point, at their literal types. -/
abbrev p0 (c : Dev nD) (t : Fin cfg1.N) : Vec Ideal S2x1024x256 .f32 := iblk1 (V2 m ρ) c 0 t
abbrev p1 (c : Dev nD) (t : Fin cfg1.N) : Vec Ideal S256x256 .f32 := iblk1 (V2 m ρ) c 1 t
abbrev p2 (c : Dev nD) (t : Fin cfg1.N) : Vec Ideal S256 .f32 := iblk1 (V2 m ρ) c 2 t
abbrev p3 (c : Dev nD) (t : Fin cfg1.N) : Vec Ideal S256x256 .f32 := iblk1 (V2 m ρ) c 3 t
abbrev p4 (c : Dev nD) (t : Fin cfg1.N) : Vec Ideal S256 .f32 := iblk1 (V2 m ρ) c 4 t

/-- Window 0's one block is the whole pooled array. -/
theorem p0_eq (c : Dev nD) (t : Fin cfg1.N) : p0 m ρ c t = Arr.pooled m ρ c := by
  have hz' : (fun a => win1_0.index t a * main_v1.ty.shape.size a) = fun _ => 0 := funext fun a => by fin_cases a <;> rfl
  exact Memref.read_access_unit_zero (Elt Ideal) main_v1 hz' (fun a => by rw [congrFun hz' a]; simp) (Arr.pooled m ρ c)

/-- A buffer no host operation and no window of the pooling region writes holds, when the second region starts,
    what it held at launch. -/
theorem V2_of_untouched (c : Dev nD) (b : Ref sig .tc) (h0 : ∀ w, Pipeline.arrRef spec0 w ≠ b)
    (hh : ∀ op ∈ (hostOps0 : List (HloOp τ sig (Elt Ideal))), Proc.devRef .tc b ∉ op.writes) :
    V2 m ρ c b = m ((c : Thread nD τ).loc b) :=
  calc W2 m ρ c (Proc.devRef .tc b)
    _ = W1 m ρ c (Proc.devRef .tc b) := W2_of_ne m ρ c b h0
    _ = W0 m ρ c (Proc.devRef .tc b) := StableHlo.after_of_forall_not_mem (b := Proc.devRef .tc b) _ _ hh
    _ = m ((c : Thread nD τ).loc b) := rfl

/-- The one host operation writes the reshaped segment numbers only. -/
theorem host_untouched (b : Ref sig .tc) (hb : b ≠ main_v0) :
    ∀ op ∈ (hostOps0 : List (HloOp τ sig (Elt Ideal))), Proc.devRef (τ := τ) .tc b ∉ op.writes :=
  List.forall_iff_forall_mem.mp (by
    simp only [hostOps0, List.Forall, StableHlo.reshape_writes, Finset.mem_singleton]
    exact StableHlo.devRef_ne_of_ne hb)

/-- Windows 1 to 4: each one's block is its whole weight array, as launched. -/
theorem p1_eq (c : Dev nD) (t : Fin cfg1.N) : p1 m ρ c t = m ((c : Thread nD τ).loc main_arg10) := by
  have hz' : (fun a => win1_1.index t a * main_arg10.ty.shape.size a) = fun _ => 0 := funext fun a => by fin_cases a <;> rfl
  exact (Memref.read_access_unit_zero (Elt Ideal) main_arg10 hz' (fun a => by rw [congrFun hz' a]; simp) (V2 m ρ c main_arg10)).trans
    (V2_of_untouched m ρ c main_arg10 (by decide) (host_untouched main_arg10 (by decide)))
theorem p2_eq (c : Dev nD) (t : Fin cfg1.N) : p2 m ρ c t = m ((c : Thread nD τ).loc main_arg11) := by
  have hz' : (fun a => win1_2.index t a * main_arg11.ty.shape.size a) = fun _ => 0 := funext fun a => by fin_cases a; rfl
  exact (Memref.read_access_unit_zero (Elt Ideal) main_arg11 hz' (fun a => by rw [congrFun hz' a]; simp) (V2 m ρ c main_arg11)).trans
    (V2_of_untouched m ρ c main_arg11 (by decide) (host_untouched main_arg11 (by decide)))
theorem p3_eq (c : Dev nD) (t : Fin cfg1.N) : p3 m ρ c t = m ((c : Thread nD τ).loc main_arg12) := by
  have hz' : (fun a => win1_3.index t a * main_arg12.ty.shape.size a) = fun _ => 0 := funext fun a => by fin_cases a <;> rfl
  exact (Memref.read_access_unit_zero (Elt Ideal) main_arg12 hz' (fun a => by rw [congrFun hz' a]; simp) (V2 m ρ c main_arg12)).trans
    (V2_of_untouched m ρ c main_arg12 (by decide) (host_untouched main_arg12 (by decide)))
theorem p4_eq (c : Dev nD) (t : Fin cfg1.N) : p4 m ρ c t = m ((c : Thread nD τ).loc main_arg13) := by
  have hz' : (fun a => win1_4.index t a * main_arg13.ty.shape.size a) = fun _ => 0 := funext fun a => by fin_cases a; rfl
  exact (Memref.read_access_unit_zero (Elt Ideal) main_arg13 hz' (fun a => by rw [congrFun hz' a]; simp) (V2 m ρ c main_arg13)).trans
    (V2_of_untouched m ρ c main_arg13 (by decide) (host_untouched main_arg13 (by decide)))

/-- What the statement says the result array holds. -/
abbrev target (c : Dev nD) : S1024x256.Idx → EReal := fun j => Spec.mlp
  (fun g k => Arr.pooled m ρ c (ix3 (0 : Fin 2) g k) + Arr.pooled m ρ c (ix3 (1 : Fin 2) g k))
  (Spec.mat (m ((c : Thread nD τ).loc main_arg10))) (Spec.vec (m ((c : Thread nD τ).loc main_arg11)))
  (Spec.mat (m ((c : Thread nD τ).loc main_arg12))) (Spec.vec (m ((c : Thread nD τ).loc main_arg13))) (j 0) (j 1)

/-- What the body leaves in the output's staging buffer at a point is the target. -/
theorem after_eq (c : Dev nD) (t : Fin cfg1.N) : (dat1 (V2 m ρ) c).after 5 t = target m ρ c := by
  rw [after1_5]
  show out1_5 (p0 m ρ c t) (p1 m ρ c t) (p2 m ρ c t) (p3 m ρ c t) (p4 m ρ c t) = _
  rw [out_eq, p0_eq, p1_eq, p2_eq, p3_eq, p4_eq]
  funext j
  obtain ⟨g, d, rfl⟩ : ∃ g d, j = ix2 g d := ⟨j 0, j 1, eq_ix2 j⟩
  exact pay_apply _ _ _ _ _ g d

/-- The one write-back writes the target: block (0, 0) of the [1024, 256] array read through zero offsets is the array. -/
theorem flushed_eq (c : Dev nD) (t : Fin cfg1.N) (hf : (cfg1.win 5).flush t = true) :
    (dat1 (V2 m ρ) c).flushed 5 t = ((cfg1.win 5).blk t).view.read (Elt Ideal) (target m ρ c) := by
  show (cfg1.win 5).cut (grid1.coords t) ((dat1 (V2 m ρ) c).after 5 t) = _
  rw [after_eq]
  have hz' : (fun a => win1_5.index t a * main_v2.ty.shape.size a) = fun _ => 0 := funext fun a => by fin_cases a <;> rfl
  exact (Memref.read_access_unit_zero (Elt Ideal) main_v2 hz' (fun a => by rw [congrFun hz' a]; simp) (target m ρ c)).symm

/-- The region's one point writes the whole result array, so the array ends holding the target. -/
theorem arr_eq (c : Dev nD) : (dat1 (V2 m ρ) c).arrAt 5 cfg1.N = target m ρ c :=
  (dat1 (V2 m ρ) c).arrAt_eq_of_cover 5 (target m ρ c) (flushed_eq m ρ c) fun i =>
    ⟨t1_0, flush1_5 t1_0, by
      show i ∈ ((View.whole main_v2).slice (win1_5.rect t1_0)).set
      rw [View.set_slice_whole, Rect.mem_set_unit]
      intro a
      have h0 : (i 0 : Nat) < 1024 := (i 0).isLt
      have h1 : (i 1 : Nat) < 256 := (i 1).isLt
      match a with
      | ⟨0, _⟩ =>
        show win1_5.index t1_0 0 * win1_5.size 0 ≤ (i 0 : Nat)
          ∧ (i 0 : Nat) < win1_5.index t1_0 0 * win1_5.size 0 + win1_5.xsize (grid1.coords t1_0) 0
        rw [show win1_5.index t1_0 0 * win1_5.size 0 = 0 from rfl, show win1_5.xsize (grid1.coords t1_0) 0 = 1024 from rfl]
        omega
      | ⟨1, _⟩ =>
        show win1_5.index t1_0 1 * win1_5.size 1 ≤ (i 1 : Nat)
          ∧ (i 1 : Nat) < win1_5.index t1_0 1 * win1_5.size 1 + win1_5.xsize (grid1.coords t1_0) 1
        rw [show win1_5.index t1_0 1 * win1_5.size 1 = 0 from rfl, show win1_5.xsize (grid1.coords t1_0) 1 = 256 from rfl]
        omega⟩

/-- THE SECOND REGION'S RESULT: two layers on the sum of the two halves of the pooling region's result. -/
theorem final_eq (c : Dev nD) :
    Arr.result m ρ c
      = fun j => Spec.mlp
          (fun g k => Arr.pooled m ρ c (ix3 (0 : Fin 2) g k) + Arr.pooled m ρ c (ix3 (1 : Fin 2) g k))
          (Spec.mat (m ((c : Thread nD τ).loc main_arg10))) (Spec.vec (m ((c : Thread nD τ).loc main_arg11)))
          (Spec.mat (m ((c : Thread nD τ).loc main_arg12))) (Spec.vec (m ((c : Thread nD τ).loc main_arg13))) (j 0) (j 1) :=
  (W3_arr m ρ c 5).trans (arr_eq m ρ c)

end Cert.KernelIdeal.Final

end
-- ==== Proof.LibIndex.lean ====
/-
  Three host operations read at an index, and two facts of extended-real arithmetic.

  A gather of whole rows of a matrix (one start index per result row), a scatter that adds whole rows of an update
  matrix into the rows of an operand, and its rank-1 form that adds scalars into a vector: each is read at one
  element. The scatters are read at the ideal instance, where a float is an extended real and the accumulation is
  the exact sum over the updates that land on the element.
-/
import Idealize.ShloMosaic.PureOps.Ideal
import Idealize.ShloMosaic.Lib.ValueIdx
import Mathlib.Data.EReal.Operations
import Mathlib.Algebra.BigOperators.Group.Finset.Basic
import Mathlib.Algebra.BigOperators.Group.Finset.Piecewise

noncomputable section

open scoped BigOperators

namespace Cert.LibIndex

open Idealize.ShloMosaic Idealize.ShloMosaic.ValueIdx

/-! ## A gather of rows -/

section RowGather
variable {α : Type}

/-- The dimension numbers of a gather of whole rows: operand `[N, C]`, start indices `[R, 1]` (one row number
    per result row), result `[R, C]`; axis 0 of the operand is collapsed and indexed, axis 1 is the offset axis,
    the slice is one whole row. The conditions `wf` are decided on a program's literal shapes. -/
abbrev rowGatherDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(k, c)`: column `c` of the operand's row whose number is the start index
    `idx[k, 0]`, read signed and clamped into `[0, N − 1]`. -/
theorem gather_row_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (k : Fin R) (c : Fin C) :
    Host.gather (rowGatherDims N C R wf) x idx (ix2 k c)
      = x (ix2 ⟨min (idx (ix2 k (0 : Fin 1))).toInt.toNat (N - 1), by omega⟩ c) := by
  -- the start on axis 0: the clamped start index; on axis 1 (not in the start index map): zero
  have hst0 : (rowGatherDims N C R wf).start (ix2 k c) idx (0 : Fin 2)
      = min (idx (ix2 k (0 : Fin 1))).toInt.toNat (N - 1) := by
    unfold GatherDims.start
    rw [dif_pos (show (0 : Fin 2) ∈ (rowGatherDims N C R wf).startIndexMap from List.mem_singleton.mpr rfl)]
    have hsi : (rowGatherDims N C R wf).siIdx (ix2 k c) ⟨List.idxOf (0 : Fin 2) (rowGatherDims N C R wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  have hst1 : (rowGatherDims N C R wf).start (ix2 k c) idx (1 : Fin 2) = 0 := by
    unfold GatherDims.start
    exact dif_neg (show (1 : Fin 2) ∉ ([0] : List (Fin 2)) from by decide)
  -- the offset coordinate: zero on the collapsed axis 0, the result's column on axis 1
  have hoff0 : (rowGatherDims N C R wf).offCoord (ix2 k c) (0 : Fin 2) = 0 :=
    GatherDims.offCoord_eq_zero _ _ _ (fun h => ((GatherDims.mem_sKept _ _).mp h).1 (List.mem_singleton.mpr rfl))
  have hoff1 : (rowGatherDims N C R wf).offCoord (ix2 k c) (1 : Fin 2) = c.val := by
    unfold GatherDims.offCoord
    rw [dif_pos ((GatherDims.mem_sKept (rowGatherDims N C R wf) (1 : Fin 2)).mpr
      ⟨(show (1 : Fin 2) ∉ ([0] : List (Fin 2)) from by decide), List.not_mem_nil⟩)]
    rfl
  unfold Host.gather
  congr 1
  funext a
  refine Fin.ext ?_
  match a with
  | ⟨0, _⟩ =>
    show (rowGatherDims N C R wf).start (ix2 k c) idx (0 : Fin 2) + (rowGatherDims N C R wf).batchCoord (ix2 k c) (0 : Fin 2)
      + (rowGatherDims N C R wf).offCoord (ix2 k c) (0 : Fin 2) = min (idx (ix2 k (0 : Fin 1))).toInt.toNat (N - 1)
    rw [GatherDims.batchCoord_eq_zero _ _ _ List.not_mem_nil, hst0, hoff0]
    rfl
  | ⟨1, _⟩ =>
    show (rowGatherDims N C R wf).start (ix2 k c) idx (1 : Fin 2) + (rowGatherDims N C R wf).batchCoord (ix2 k c) (1 : Fin 2)
      + (rowGatherDims N C R wf).offCoord (ix2 k c) (1 : Fin 2) = c.val
    rw [GatherDims.batchCoord_eq_zero _ _ _ List.not_mem_nil, hst1, hoff1]
    omega

/-- The same for any dimension numbers whose fields are those of a gather of rows (a printed record's are, each by
    `rfl`). -/
theorem gather_row_apply_of {N C R w : Nat} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (k : Fin R) (c : Fin C) :
    Host.gather d x idx (ix2 k c)
      = x (ix2 ⟨min (idx (ix2 k (0 : Fin 1))).toInt.toNat (N - 1), by omega⟩ c) := by
  obtain ⟨od, cd, ob, sb, sm, iv, ss, wf⟩ := d
  dsimp only at h1 h2 h3 h4 h5 h6 h7
  subst h1 h2 h3 h4 h5 h6 h7
  exact gather_row_apply hN wf x idx k c

end RowGather

/-! ## A scatter that adds rows -/

/-- An axis is among a shape's kept axes exactly when it is not among the removed ones. -/
theorem mem_kept {s : Shape} (axes : List (Fin s.rank)) (a : Fin s.rank) : a ∈ s.kept axes ↔ a ∉ axes := by
  simp [Shape.kept, List.mem_filter, List.mem_finRange]

/-- The dimension numbers of a scatter of whole rows: operand `[N, C]`, scatter indices `[R, 1]` (one row number
    per update row), updates `[R, C]`; axis 0 of the operand is the inserted, indexed axis, axis 1 of the updates
    is the window axis. -/
abbrev rowScatterDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The window of update row `k` starts, on the operand's axis 0, at the scatter index `idx[k, 0]` read signed. -/
theorem rowScatter_start0 {N C R w : Nat}
    (wf : ScatterDims.WF ⟨2, ![N, C]⟩ ⟨2, ![R, 1]⟩ ⟨2, ![R, C]⟩ [1] [0] [0] 1)
    (idx : IVec ⟨2, ![R, 1]⟩ w) (k : Fin R) (c : Fin C) :
    (rowScatterDims N C R wf).start (ix2 k c) idx (0 : Fin 2) = (idx (ix2 k (0 : Fin 1))).toInt := by
  unfold ScatterDims.start
  rw [dif_pos (show (0 : Fin 2) ∈ (rowScatterDims N C R wf).scatterDimsToOperandDims from List.mem_singleton.mpr rfl)]
  have hsi : (rowScatterDims N C R wf).siIdx (ix2 k c) ⟨List.idxOf (0 : Fin 2) (rowScatterDims N C R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- On the operand's axis 1, which the scatter indices do not address, the window starts at zero. -/
theorem rowScatter_start1 {N C R w : Nat}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScatterDims N C R wf).start j idx (1 : Fin 2) = 0 := by
  unfold ScatterDims.start
  exact dif_neg (show (1 : Fin 2) ∉ ([0] : List (Fin 2)) from by decide)

/-- The window coordinate on the inserted axis 0 is zero. -/
theorem rowScatter_window0 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (0 : Fin 2) = 0 := by
  unfold ScatterDims.window
  exact dif_neg (fun h => ((mem_kept _ _).mp h) (List.mem_singleton.mpr rfl))

/-- The window coordinate on axis 1 is the update's column. -/
theorem rowScatter_window1 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (1 : Fin 2) = (j 1).val := by
  have h1k : (1 : Fin 2) ∈ (rowScatterDims N C R wf).sKept :=
    (mem_kept _ _).mpr (show (1 : Fin 2) ∉ ([0] : List (Fin 2)) from by decide)
  unfold ScatterDims.window
  rw [dif_pos h1k]
  rfl

/-- Update element `(k, c')` lands on operand element `(v, c)` exactly when row `k`'s scatter index, read signed, is
    `v` and the columns agree (an index that is not a row number lands nowhere). -/
theorem rowScatter_resultIdx?_eq_some {N C R w : Nat}
    (wf : ScatterDims.WF ⟨2, ![N, C]⟩ ⟨2, ![R, 1]⟩ ⟨2, ![R, C]⟩ [1] [0] [0] 1)
    (idx : IVec ⟨2, ![R, 1]⟩ w) (k : Fin R) (c' : Fin C) (v : Fin N) (c : Fin C) :
    (rowScatterDims N C R wf).resultIdx? (ix2 k c') idx = some (ix2 v c)
      ↔ (idx (ix2 k (0 : Fin 1))).toInt = (v.val : Int) ∧ c' = c := by
  have hs0 := rowScatter_start0 wf idx k c'
  have hs1 := rowScatter_start1 wf idx (ix2 k c')
  have hw0 := rowScatter_window0 wf (ix2 k c')
  have hw1 : (rowScatterDims N C R wf).window (ix2 k c') (1 : Fin 2) = c'.val := rowScatter_window1 wf (ix2 k c')
  have hv := v.isLt
  have hc' := c'.isLt
  unfold ScatterDims.resultIdx?
  split
  · rename_i h
    rw [Option.some.injEq]
    constructor
    · intro hf
      have h0 : ((rowScatterDims N C R wf).start (ix2 k c') idx (0 : Fin 2)
          + ((rowScatterDims N C R wf).window (ix2 k c') (0 : Fin 2) : Int)).toNat = v.val :=
        congrArg Fin.val (congrFun hf (0 : Fin 2))
      have h1 : ((rowScatterDims N C R wf).start (ix2 k c') idx (1 : Fin 2)
          + ((rowScatterDims N C R wf).window (ix2 k c') (1 : Fin 2) : Int)).toNat = c.val :=
        congrArg Fin.val (congrFun hf (1 : Fin 2))
      have hh := (h (0 : Fin 2)).1
      rw [hs0, hw0] at h0 hh
      rw [hs1, hw1] at h1
      exact ⟨by omega, Fin.ext (by omega)⟩
    · rintro ⟨hv', hcc⟩
      have hcv : c'.val = c.val := congrArg Fin.val hcc
      funext a
      refine Fin.ext ?_
      match a with
      | ⟨0, _⟩ =>
        show ((rowScatterDims N C R wf).start (ix2 k c') idx (0 : Fin 2)
          + ((rowScatterDims N C R wf).window (ix2 k c') (0 : Fin 2) : Int)).toNat = v.val
        rw [hs0, hw0, hv']; omega
      | ⟨1, _⟩ =>
        show ((rowScatterDims N C R wf).start (ix2 k c') idx (1 : Fin 2)
          + ((rowScatterDims N C R wf).window (ix2 k c') (1 : Fin 2) : Int)).toNat = c.val
        rw [hs1, hw1]; omega
  · rename_i h
    refine iff_of_false (by simp) ?_
    rintro ⟨hv', -⟩
    apply h
    intro a
    match a with
    | ⟨0, _⟩ =>
      show 0 ≤ (rowScatterDims N C R wf).start (ix2 k c') idx (0 : Fin 2)
          + ((rowScatterDims N C R wf).window (ix2 k c') (0 : Fin 2) : Int)
        ∧ (rowScatterDims N C R wf).start (ix2 k c') idx (0 : Fin 2)
          + ((rowScatterDims N C R wf).window (ix2 k c') (0 : Fin 2) : Int) < (N : Int)
      rw [hs0, hw0, hv']; omega
    | ⟨1, _⟩ =>
      show 0 ≤ (rowScatterDims N C R wf).start (ix2 k c') idx (1 : Fin 2)
          + ((rowScatterDims N C R wf).window (ix2 k c') (1 : Fin 2) : Int)
        ∧ (rowScatterDims N C R wf).start (ix2 k c') idx (1 : Fin 2)
          + ((rowScatterDims N C R wf).window (ix2 k c') (1 : Fin 2) : Int) < (C : Int)
      rw [hs1, hw1]; omega

/-- THE ROW SCATTER-ADD READ AT `(v, c)`, at the ideal instance: the operand's element plus column `c` of every
    update row whose scatter index, read signed, is `v`. -/
theorem scatterAdd_row_apply {N C R w : Nat}
    (wf : ScatterDims.WF ⟨2, ![N, C]⟩ ⟨2, ![R, 1]⟩ ⟨2, ![R, C]⟩ [1] [0] [0] 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) (rowScatterDims N C R wf) x idx upd (ix2 v c)
      = x (ix2 v c) + ∑ k : Fin R, if (idx (ix2 k (0 : Fin 1))).toInt = (v.val : Int) then upd (ix2 k c) else 0 := by
  show Ideal.hostScatterAdd (rowScatterDims N C R wf) x idx upd (ix2 v c) = _
  unfold Ideal.hostScatterAdd
  congr 1
  rw [Finset.sum_filter, sum_idx2]
  refine Finset.sum_congr rfl fun k _ => ?_
  simp only [rowScatter_resultIdx?_eq_some]
  by_cases hk : (idx (ix2 k (0 : Fin 1))).toInt = (v.val : Int)
  · have hcg : ∀ b : Fin C, (if (idx (ix2 k (0 : Fin 1))).toInt = (v.val : Int) ∧ b = c then upd (ix2 k b) else 0)
        = if b = c then upd (ix2 k b) else 0 := fun b => if_congr (and_iff_right hk) rfl rfl
    rw [if_pos hk, Finset.sum_congr rfl (fun b _ => hcg b),
      Finset.sum_ite_eq' Finset.univ c (fun b => upd (ix2 k b)), if_pos (Finset.mem_univ c)]
  · rw [if_neg hk]
    exact Finset.sum_eq_zero fun b _ => if_neg (fun h => hk h.1)

/-- The same for any dimension numbers whose fields are those of a scatter of rows. -/
theorem scatterAdd_row_apply_of {N C R w : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) d x idx upd (ix2 v c)
      = x (ix2 v c) + ∑ k : Fin R, if (idx (ix2 k (0 : Fin 1))).toInt = (v.val : Int) then upd (ix2 k c) else 0 := by
  obtain ⟨uw, iw, sd, iv, wf⟩ := d
  dsimp only at h1 h2 h3 h4
  subst h1 h2 h3 h4
  exact scatterAdd_row_apply wf x idx upd v c

/-! ## A scatter that adds scalars into a vector -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of scalars into a vector: operand `[N]`, scatter indices `[R, 1]`, updates
    `[R]`; the operand's one axis is inserted and indexed, the updates have no window axis. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update `k`'s one-element window starts at the scatter index `idx[k, 0]` read signed. -/
theorem vecScatter_start {N R w : Nat}
    (wf : ScatterDims.WF ⟨1, ![N]⟩ ⟨2, ![R, 1]⟩ ⟨1, ![R]⟩ [] [0] [0] 1)
    (idx : IVec ⟨2, ![R, 1]⟩ w) (k : Fin R) :
    (vecScatterDims N R wf).start (ix1 k) idx (0 : Fin 1) = (idx (ix2 k (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 k) ⟨List.idxOf (0 : Fin 1) (vecScatterDims N R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The window coordinate on the operand's one, inserted axis is zero. -/
theorem vecScatter_window {N R : Nat}
    (wf : ScatterDims.WF ⟨1, ![N]⟩ ⟨2, ![R, 1]⟩ ⟨1, ![R]⟩ [] [0] [0] 1)
    (j : (⟨1, ![R]⟩ : Shape).Idx) :
    (vecScatterDims N R wf).window j (0 : Fin 1) = 0 := by
  unfold ScatterDims.window
  exact dif_neg (fun h => ((mem_kept _ _).mp h) (List.mem_singleton.mpr rfl))

/-- Update `k` lands on operand element `v` exactly when its scatter index, read signed, is `v`. -/
theorem vecScatter_resultIdx?_eq_some {N R w : Nat}
    (wf : ScatterDims.WF ⟨1, ![N]⟩ ⟨2, ![R, 1]⟩ ⟨1, ![R]⟩ [] [0] [0] 1)
    (idx : IVec ⟨2, ![R, 1]⟩ w) (k : Fin R) (v : Fin N) :
    (vecScatterDims N R wf).resultIdx? (ix1 k) idx = some (ix1 v)
      ↔ (idx (ix2 k (0 : Fin 1))).toInt = (v.val : Int) := by
  have hs0 := vecScatter_start wf idx k
  have hw0 := vecScatter_window wf (ix1 k)
  have hv := v.isLt
  unfold ScatterDims.resultIdx?
  split
  · rename_i h
    rw [Option.some.injEq]
    constructor
    · intro hf
      have h0 : ((vecScatterDims N R wf).start (ix1 k) idx (0 : Fin 1)
          + ((vecScatterDims N R wf).window (ix1 k) (0 : Fin 1) : Int)).toNat = v.val :=
        congrArg Fin.val (congrFun hf (0 : Fin 1))
      have hh := (h (0 : Fin 1)).1
      rw [hs0, hw0] at h0 hh
      omega
    · intro hv'
      funext a
      refine Fin.ext ?_
      match a with
      | ⟨0, _⟩ =>
        show ((vecScatterDims N R wf).start (ix1 k) idx (0 : Fin 1)
          + ((vecScatterDims N R wf).window (ix1 k) (0 : Fin 1) : Int)).toNat = v.val
        rw [hs0, hw0, hv']; omega
  · rename_i h
    refine iff_of_false (by simp) ?_
    intro hv'
    apply h
    intro a
    match a with
    | ⟨0, _⟩ =>
      show 0 ≤ (vecScatterDims N R wf).start (ix1 k) idx (0 : Fin 1)
          + ((vecScatterDims N R wf).window (ix1 k) (0 : Fin 1) : Int)
        ∧ (vecScatterDims N R wf).start (ix1 k) idx (0 : Fin 1)
          + ((vecScatterDims N R wf).window (ix1 k) (0 : Fin 1) : Int) < (N : Int)
      rw [hs0, hw0, hv']; omega

/-- THE SCALAR SCATTER-ADD READ AT `v`, at the ideal instance: the operand's element plus every update whose scatter
    index, read signed, is `v`. -/
theorem scatterAdd_vec_apply {N R w : Nat}
    (wf : ScatterDims.WF ⟨1, ![N]⟩ ⟨2, ![R, 1]⟩ ⟨1, ![R]⟩ [] [0] [0] 1) {φ : FTy}
    (x : FVec Ideal ⟨1, ![N]⟩ φ) (idx : IVec ⟨2, ![R, 1]⟩ w) (upd : FVec Ideal ⟨1, ![R]⟩ φ) (v : Fin N) :
    Host.scatterAdd (F := Ideal) (vecScatterDims N R wf) x idx upd (ix1 v)
      = x (ix1 v) + ∑ k : Fin R, if (idx (ix2 k (0 : Fin 1))).toInt = (v.val : Int) then upd (ix1 k) else 0 := by
  show Ideal.hostScatterAdd (vecScatterDims N R wf) x idx upd (ix1 v) = _
  unfold Ideal.hostScatterAdd
  congr 1
  rw [Finset.sum_filter, sum_idx1]
  refine Finset.sum_congr rfl fun k _ => ?_
  simp only [vecScatter_resultIdx?_eq_some]

/-- The same for any dimension numbers whose fields are those of a scatter of scalars into a vector. -/
theorem scatterAdd_vec_apply_of {N R w : Nat} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1) {φ : FTy}
    (x : FVec Ideal ⟨1, ![N]⟩ φ) (idx : IVec ⟨2, ![R, 1]⟩ w) (upd : FVec Ideal ⟨1, ![R]⟩ φ) (v : Fin N) :
    Host.scatterAdd (F := Ideal) d x idx upd (ix1 v)
      = x (ix1 v) + ∑ k : Fin R, if (idx (ix2 k (0 : Fin 1))).toInt = (v.val : Int) then upd (ix1 k) else 0 := by
  obtain ⟨uw, iw, sd, iv, wf⟩ := d
  dsimp only at h1 h2 h3 h4
  subst h1 h2 h3 h4
  exact scatterAdd_vec_apply wf x idx upd v

/-! ## Extended-real arithmetic -/

/-- A natural number times an extended real is the repeated sum. -/
theorem natCast_mul_eq_nsmul (n : ℕ) (x : EReal) : ((n : ℝ) : EReal) * x = n • x := by
  induction n with
  | zero => simp
  | succ n ih =>
    have hn : (0 : EReal) ≤ ((n : ℝ) : EReal) := EReal.coe_nonneg.mpr (Nat.cast_nonneg n)
    rw [Nat.cast_succ, EReal.coe_add, EReal.coe_one,
      EReal.right_distrib_of_nonneg (a := ((n : ℝ) : EReal)) (b := 1) (c := x) hn zero_le_one, ih, one_mul, succ_nsmul]

/-- A sum over the indices that satisfy `p` of `A k + x` is the sum of the `A k` plus their number times `x`
    (the count is a sum of ones, so it is nonnegative and multiplication distributes over it). -/
theorem sum_ite_add_const {K : Type*} [Fintype K] (p : K → Prop) [DecidablePred p] (A : K → EReal) (x : EReal) :
    ∑ k, (if p k then A k + x else 0) = (∑ k, if p k then A k else 0) + (∑ k, if p k then (1 : EReal) else 0) * x := by
  classical
  have key : ∀ s : Finset K, ∑ k ∈ s, (if p k then A k + x else 0)
      = (∑ k ∈ s, if p k then A k else 0) + (∑ k ∈ s, if p k then (1 : EReal) else 0) * x := by
    intro s
    induction s using Finset.induction_on with
    | empty => simp
    | insert a s ha ih =>
      rw [Finset.sum_insert ha, Finset.sum_insert ha, Finset.sum_insert ha, ih]
      have hnn : (0 : EReal) ≤ ∑ k ∈ s, if p k then (1 : EReal) else 0 :=
        Finset.sum_nonneg fun k _ => by split <;> simp
      by_cases hp : p a
      · rw [if_pos hp, if_pos hp, if_pos hp, EReal.right_distrib_of_nonneg zero_le_one hnn, one_mul]
        exact add_add_add_comm _ _ _ _
      · rw [if_neg hp, if_neg hp, if_neg hp, zero_add, zero_add, zero_add]
  exact key Finset.univ

end Cert.LibIndex

end
-- ==== Proof.RefValue.lean ====
/-
  The reference program's result, stage by stage, is the specification: its four row-wise layers and the logistic
  function spelt as 1 / (1 + exp (−·)) are the gated rows, its scatter-add into the zero array the segment sums, its
  last two layers the final network.
-/
import proofs.«425977_j5583457485045_2_alg».proof.Proof.Gen.ReferenceIdeal.Read
import proofs.«425977_j5583457485045_2_alg».proof.Proof.Spec
import proofs.«425977_j5583457485045_2_alg».proof.Proof.LibIndex
import proofs.«425977_j5583457485045_2_alg».proof.Proof.LibDot
import Idealize.ShloMosaic.Lib.ValueLayout
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The bit pattern of the float 1.0 is the extended real 1. -/
theorem one_f32 : Ideal.ofBits .f32 0x3F800000#32 = 1 := by
  simp [Ideal.ofBits, Ideal.ieee, -EReal.coe_mul]; norm_num

/-- The weight network's first layer, at row `r` and column `d`. -/
theorem v4_at (x0 : (⟨S200000x256, .f32⟩ : BufTy).Contents (Elt Ideal)) (x2 : (⟨S256x256, .f32⟩ : BufTy).Contents (Elt Ideal)) (x3 : (⟨S256, .f32⟩ : BufTy).Contents (Elt Ideal))
    (r : Fin 200000) (d : Fin 256) :
    val_main_v4 (F := Ideal) x0 x2 x3 (ix2 r d)
      = Spec.dense (Spec.mat x0) (Spec.mat x2) (Spec.vec x3) r d := by
  rw [val_main_v4_apply, val_main_v3_apply, val_main_v0_apply, val_main_v2_apply, val_main_v1_apply,
    val_main_call0_v0_apply, val_main_call0_cst_apply]
  have hl : ∀ k, lidx_main_v0 (ix2 r d) k = ix2 r k := fun k => by
    funext a; match a with | ⟨0, _⟩ => rfl | ⟨1, _⟩ => rfl
  have hr : ∀ k, ridx_main_v0 (ix2 r d) k = ix2 k d := fun k => by
    funext a; match a with | ⟨0, _⟩ => rfl | ⟨1, _⟩ => rfl
  have hb : idx_main_v1 (idx_main_v2 (ix2 r d)) = ix1 d := by
    funext a; match a with | ⟨0, _⟩ => rfl
  simp only [hl, hr, hb, Ideal.maximumf_def, Ideal.addf_def, Ideal.ofBits_def, Ideal.ofBits_zero_f32]
  rfl

/-- The weight network, both layers. -/
theorem v9_at (x0 : (⟨S200000x256, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal))
    (r : Fin 200000) (d : Fin 256) :
    val_main_v9 (F := Ideal) x0 x2 x3 x4 x5 (ix2 r d)
      = Spec.mlp (Spec.mat x0) (Spec.mat x2) (Spec.vec x3) (Spec.mat x4) (Spec.vec x5) r d := by
  rw [val_main_v9_apply, val_main_v8_apply, val_main_v5_apply, val_main_v7_apply, val_main_v6_apply,
    val_main_call1_v0_apply, val_main_call1_cst_apply]
  have hl : ∀ k, lidx_main_v5 (ix2 r d) k = ix2 r k := fun k => by
    funext a; match a with | ⟨0, _⟩ => rfl | ⟨1, _⟩ => rfl
  have hr : ∀ k, ridx_main_v5 (ix2 r d) k = ix2 k d := fun k => by
    funext a; match a with | ⟨0, _⟩ => rfl | ⟨1, _⟩ => rfl
  have hb : idx_main_v6 (idx_main_v7 (ix2 r d)) = ix1 d := by
    funext a; match a with | ⟨0, _⟩ => rfl
  simp only [hl, hr, hb, v4_at, Ideal.maximumf_def, Ideal.addf_def, Ideal.ofBits_def, Ideal.ofBits_zero_f32]
  rfl

/-- The gate network's first layer. -/
theorem v14_at (x0 : (⟨S200000x256, .f32⟩ : BufTy).Contents (Elt Ideal)) (x6 : (⟨S256x256, .f32⟩ : BufTy).Contents (Elt Ideal)) (x7 : (⟨S256, .f32⟩ : BufTy).Contents (Elt Ideal))
    (r : Fin 200000) (d : Fin 256) :
    val_main_v14 (F := Ideal) x0 x6 x7 (ix2 r d)
      = Spec.dense (Spec.mat x0) (Spec.mat x6) (Spec.vec x7) r d := by
  rw [val_main_v14_apply, val_main_v13_apply, val_main_v10_apply, val_main_v12_apply, val_main_v11_apply,
    val_main_call2_v0_apply, val_main_call2_cst_apply]
  have hl : ∀ k, lidx_main_v10 (ix2 r d) k = ix2 r k := fun k => by
    funext a; match a with | ⟨0, _⟩ => rfl | ⟨1, _⟩ => rfl
  have hr : ∀ k, ridx_main_v10 (ix2 r d) k = ix2 k d := fun k => by
    funext a; match a with | ⟨0, _⟩ => rfl | ⟨1, _⟩ => rfl
  have hb : idx_main_v11 (idx_main_v12 (ix2 r d)) = ix1 d := by
    funext a; match a with | ⟨0, _⟩ => rfl
  simp only [hl, hr, hb, Ideal.maximumf_def, Ideal.addf_def, Ideal.ofBits_def, Ideal.ofBits_zero_f32]
  rfl

/-- The gate network, both layers. -/
theorem v19_at (x0 : (⟨S200000x256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal))
    (r : Fin 200000) (d : Fin 256) :
    val_main_v19 (F := Ideal) x0 x6 x7 x8 x9 (ix2 r d)
      = Spec.mlp (Spec.mat x0) (Spec.mat x6) (Spec.vec x7) (Spec.mat x8) (Spec.vec x9) r d := by
  rw [val_main_v19_apply, val_main_v18_apply, val_main_v15_apply, val_main_v17_apply, val_main_v16_apply,
    val_main_call3_v0_apply, val_main_call3_cst_apply]
  have hl : ∀ k, lidx_main_v15 (ix2 r d) k = ix2 r k := fun k => by
    funext a; match a with | ⟨0, _⟩ => rfl | ⟨1, _⟩ => rfl
  have hr : ∀ k, ridx_main_v15 (ix2 r d) k = ix2 k d := fun k => by
    funext a; match a with | ⟨0, _⟩ => rfl | ⟨1, _⟩ => rfl
  have hb : idx_main_v16 (idx_main_v17 (ix2 r d)) = ix1 d := by
    funext a; match a with | ⟨0, _⟩ => rfl
  simp only [hl, hr, hb, v14_at, Ideal.maximumf_def, Ideal.addf_def, Ideal.ofBits_def, Ideal.ofBits_zero_f32]
  rfl

/-- The gated rows: one over one plus the exponential of minus the gate network is the logistic function of the
    gate network, and it multiplies the weight network from the left, as in the specification. -/
theorem v26_at (x0 : (⟨S200000x256, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal))
    (r : Fin 200000) (d : Fin 256) :
    val_main_v26 (F := Ideal) x0 x2 x3 x4 x5 x6 x7 x8 x9 (ix2 r d)
      = Spec.gatedRow (Spec.mat x0) (Spec.mat x2) (Spec.vec x3) (Spec.mat x4) (Spec.vec x5) (Spec.mat x6) (Spec.vec x7) (Spec.mat x8) (Spec.vec x9) r d := by
  rw [val_main_v26_apply, val_main_v25_apply, val_main_v24_apply, val_main_cst_0_apply, val_main_v23_apply,
    val_main_v22_apply, val_main_cst_apply, val_main_v21_apply, val_main_v20_apply, v19_at, v9_at]
  simp only [Ideal.mulf_def, Ideal.hostDivf_def, Ideal.addf_def, Ideal.hostUnary_exp_def, Ideal.hostNegf_def,
    Ideal.negf_def, Ideal.ofBits_def, one_f32]
  rfl

/-- The scatter-add into the zero array: entry `(g, d)` is the sum of column `d` of the gated rows whose segment
    number, read signed, is `g`. -/
theorem v29_at (x0 : (⟨S200000x256, .f32⟩ : BufTy).Contents (Elt Ideal)) (x1 : (⟨S200000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal))
    (g : Fin 1024) (d : Fin 256) :
    val_main_v29 (F := Ideal) x0 x1 x2 x3 x4 x5 x6 x7 x8 x9 (ix2 g d)
      = Spec.segSum (Spec.vec x1) (Spec.gatedRow (Spec.mat x0) (Spec.mat x2) (Spec.vec x3) (Spec.mat x4) (Spec.vec x5) (Spec.mat x6) (Spec.vec x7) (Spec.mat x8) (Spec.vec x9)) g d := by
  unfold val_main_v29
  rw [Cert.LibIndex.scatterAdd_row_apply_of scatter_S1024x256_S200000x1_S200000x256_1_0_0_1 rfl rfl rfl rfl,
    val_main_v27_apply, val_main_cst_1_apply, Ideal.ofBits_def, Ideal.ofBits_zero_f32, zero_add]
  have hi : ∀ k : Fin 200000, idx_main_v28 (ix2 k (0 : Fin 1)) = ix1 k := fun k => by
    funext a; match a with | ⟨0, _⟩ => rfl
  simp only [val_main_v28_apply, hi, v26_at]
  rfl

/-- The final network's first layer, on the segment sums. -/
theorem v34_at (x0 : (⟨S200000x256, .f32⟩ : BufTy).Contents (Elt Ideal)) (x1 : (⟨S200000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal))
    (g : Fin 1024) (d : Fin 256) :
    val_main_v34 (F := Ideal) x0 x1 x2 x3 x4 x5 x6 x7 x8 x9 x10 x11 (ix2 g d)
      = Spec.dense (Spec.segSum (Spec.vec x1) (Spec.gatedRow (Spec.mat x0) (Spec.mat x2) (Spec.vec x3) (Spec.mat x4) (Spec.vec x5) (Spec.mat x6) (Spec.vec x7) (Spec.mat x8) (Spec.vec x9))) (Spec.mat x10) (Spec.vec x11) g d := by
  rw [val_main_v34_apply, val_main_v33_apply, val_main_v30_apply, val_main_v32_apply, val_main_v31_apply,
    val_main_call4_v0_apply, val_main_call4_cst_apply]
  have hl : ∀ k, lidx_main_v30 (ix2 g d) k = ix2 g k := fun k => by
    funext a; match a with | ⟨0, _⟩ => rfl | ⟨1, _⟩ => rfl
  have hr : ∀ k, ridx_main_v30 (ix2 g d) k = ix2 k d := fun k => by
    funext a; match a with | ⟨0, _⟩ => rfl | ⟨1, _⟩ => rfl
  have hb : idx_main_v31 (idx_main_v32 (ix2 g d)) = ix1 d := by
    funext a; match a with | ⟨0, _⟩ => rfl
  simp only [hl, hr, hb, v29_at, Ideal.maximumf_def, Ideal.addf_def, Ideal.ofBits_def, Ideal.ofBits_zero_f32]
  rfl

/-- The final network, both layers. -/
theorem v39_at (x0 : (⟨S200000x256, .f32⟩ : BufTy).Contents (Elt Ideal)) (x1 : (⟨S200000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S256x256, .f32⟩ : BufTy).Contents (Elt Ideal)) (x13 : (⟨S256, .f32⟩ : BufTy).Contents (Elt Ideal))
    (g : Fin 1024) (d : Fin 256) :
    val_main_v39 (F := Ideal) x0 x1 x2 x3 x4 x5 x6 x7 x8 x9 x10 x11 x12 x13 (ix2 g d)
      = Spec.mlp (Spec.segSum (Spec.vec x1) (Spec.gatedRow (Spec.mat x0) (Spec.mat x2) (Spec.vec x3) (Spec.mat x4) (Spec.vec x5) (Spec.mat x6) (Spec.vec x7) (Spec.mat x8) (Spec.vec x9))) (Spec.mat x10) (Spec.vec x11) (Spec.mat x12) (Spec.vec x13) g d := by
  rw [val_main_v39_apply, val_main_v38_apply, val_main_v35_apply, val_main_v37_apply, val_main_v36_apply,
    val_main_call5_v0_apply, val_main_call5_cst_apply]
  have hl : ∀ k, lidx_main_v35 (ix2 g d) k = ix2 g k := fun k => by
    funext a; match a with | ⟨0, _⟩ => rfl | ⟨1, _⟩ => rfl
  have hr : ∀ k, ridx_main_v35 (ix2 g d) k = ix2 k d := fun k => by
    funext a; match a with | ⟨0, _⟩ => rfl | ⟨1, _⟩ => rfl
  have hb : idx_main_v36 (idx_main_v37 (ix2 g d)) = ix1 d := by
    funext a; match a with | ⟨0, _⟩ => rfl
  simp only [hl, hr, hb, v34_at, Ideal.maximumf_def, Ideal.addf_def, Ideal.ofBits_def, Ideal.ofBits_zero_f32]
  rfl

/-- THE REFERENCE IS THE SPECIFICATION, as functions of the fourteen argument arrays. -/
theorem ref_eq (x0 : (⟨S200000x256, .f32⟩ : BufTy).Contents (Elt Ideal)) (x1 : (⟨S200000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S256x256, .f32⟩ : BufTy).Contents (Elt Ideal)) (x13 : (⟨S256, .f32⟩ : BufTy).Contents (Elt Ideal)) :
    val_main_v39 (F := Ideal) x0 x1 x2 x3 x4 x5 x6 x7 x8 x9 x10 x11 x12 x13 = Spec.out x0 x1 x2 x3 x4 x5 x6 x7 x8 x9 x10 x11 x12 x13 := by
  funext j
  obtain ⟨g, d, rfl⟩ : ∃ (g : Fin 1024) (d : Fin 256), j = ix2 g d := ⟨j 0, j 1, ValueIdx.eq_ix2 j⟩
  rw [v39_at]
  rfl

end Cert.ReferenceIdeal.RefValue

end
-- ==== Proof.lean ====
/-
  The pooling network: two row-wise two-layer networks on each of 200000 rows, the second under the logistic function,
  multiplied entry by entry; the rows summed into 1024 segments by their segment numbers, a number outside the range
  dropped; a third two-layer network on the segment sums.

  The kernel computes the segment sums as a product with the one-hot matrix of the segment numbers, tile by tile (100
  tiles of 2000 rows), accumulating 50 tiles in each of two blocks, and its second region adds the two blocks and
  applies the last network. The reference scatters the rows into a zero array. On the extended reals a one-hot entry
  times a row entry is the entry or zero, also when the entry is infinite, and a sum may be regrouped freely, so the two
  are the same function of the arguments (`Spec.out`); the precondition is not used.

  Frames: the two kernel programs' are generated; the reference's is its generated run with the result dropped.
  The ideal pass rewrote nothing, so `preserves` has nothing to state.
-/
import proofs.«425977_j5583457485045_2_alg».proof.Defs
import proofs.«425977_j5583457485045_2_alg».proof.Proof.Gen.Kernel
import proofs.«425977_j5583457485045_2_alg».proof.Proof.Gen.Kernel.Skeleton
import proofs.«425977_j5583457485045_2_alg».proof.Proof.Gen.Kernel.Launch
import proofs.«425977_j5583457485045_2_alg».proof.Proof.Gen.Kernel.Points
import proofs.«425977_j5583457485045_2_alg».proof.Proof.Gen.Kernel.Frame
import proofs.«425977_j5583457485045_2_alg».proof.Proof.Gen.KernelIdeal
import proofs.«425977_j5583457485045_2_alg».proof.Proof.Gen.KernelIdeal.Skeleton
import proofs.«425977_j5583457485045_2_alg».proof.Proof.Gen.KernelIdeal.Launch
import proofs.«425977_j5583457485045_2_alg».proof.Proof.Gen.KernelIdeal.Points
import proofs.«425977_j5583457485045_2_alg».proof.Proof.Gen.KernelIdeal.Frame
import proofs.«425977_j5583457485045_2_alg».proof.Proof.Gen.ReferenceIdeal
import proofs.«425977_j5583457485045_2_alg».proof.Proof.Gen.Pre_finite_inputs
import proofs.«425977_j5583457485045_2_alg».proof.Proof.Gen.ReferenceIdeal.Run
import proofs.«425977_j5583457485045_2_alg».proof.Proof.Gen.ReferenceIdeal.Read
import proofs.«425977_j5583457485045_2_alg».proof.Proof.Spec
import proofs.«425977_j5583457485045_2_alg».proof.Proof.KRun
import proofs.«425977_j5583457485045_2_alg».proof.Proof.KArrays
import proofs.«425977_j5583457485045_2_alg».proof.Proof.KPool
import proofs.«425977_j5583457485045_2_alg».proof.Proof.KFinal
import proofs.«425977_j5583457485045_2_alg».proof.Proof.RefValue
import Idealize.ShloMosaic.Adequacy
import Idealize.ShloMosaic.Init

noncomputable section

namespace Cert.Proof

open Idealize.ShloMosaic Idealize.ShloMosaic.TcCoe Idealize.SL.Sem

/-- The kernel's result array is the specification of its launch arguments: the second region's two layers are applied
    to the sum of the pooling region's two halves, each half the sum of its 50 tiles' contributions, and the two
    halves together are the segment sums. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Arr.result m ρ c = Spec.out (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) := by
  refine (Cert.KernelIdeal.Final.final_eq m ρ c).trans ?_
  funext j
  unfold Spec.out
  refine congrFun (congrFun (congrArg (fun P => Spec.mlp P _ _ _ _) ?_) (j 0)) (j 1)
  funext g k
  rw [Cert.KernelIdeal.Pool.pool_eq m ρ c 0 g k, Cert.KernelIdeal.Pool.pool_eq m ρ c 1 g k]
  exact (Spec.segSum_eq_halves _ _ g k).symm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the specification of their arguments in their result arrays, and the arguments agree. -/
theorem algebraic : Cert.algebraic_KernelIdeal_ReferenceIdeal := by
  intro m ρ m' ρ' _ hagree
  refine ⟨fun c => Spec.out (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)), ?_, ?_⟩
  · exact (θ_run Cert.KernelIdeal.defs _ _).mono (fun _ h c => ⟨(h c).1.trans (kernel_value m ρ c), (h c).2⟩)
      (Cert.KernelIdeal.Named.run_named m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13⟩ := hagree c
    rw [Cert.ReferenceIdeal.Read.val_main_v39_eq, Cert.ReferenceIdeal.RefValue.ref_eq,
      h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
